-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x512 : Shape := ⟨2, ![16384, 512]⟩
abbrev S16384x4 : Shape := ⟨2, ![16384, 4]⟩
abbrev S16384x32 : Shape := ⟨2, ![16384, 32]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : IVec S16384x512 32) (main_arg2 : IVec S16384x4 32) (main_arg3 : FVec F S16384x32 .f32) (main_arg4 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x32 .f32 := Host.absf main_arg3
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S16384 .f32 := Host.absf main_arg4
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x512 : Shape := ⟨2, ![16384, 512]⟩
abbrev S16384x4 : Shape := ⟨2, ![16384, 4]⟩
abbrev S16384x32 : Shape := ⟨2, ![16384, 32]⟩
abbrev S16384 : Shape := ⟨1, ![16384]⟩
abbrev S8192x4096 : Shape := ⟨2, ![8192, 4096]⟩
abbrev S1x16384 : Shape := ⟨2, ![1, 16384]⟩
abbrev S16384x4096 : Shape := ⟨2, ![16384, 4096]⟩
abbrev S512x512 : Shape := ⟨2, ![512, 512]⟩
abbrev S512x4 : Shape := ⟨2, ![512, 4]⟩
abbrev S512x32 : Shape := ⟨2, ![512, 32]⟩
abbrev S512x4096 : Shape := ⟨2, ![512, 4096]⟩
abbrev S1x8 : Shape := ⟨2, ![1, 8]⟩
abbrev S8 : Shape := ⟨1, ![8]⟩
abbrev S512x4x1 : Shape := ⟨3, ![512, 4, 1]⟩
abbrev S1x1x8 : Shape := ⟨3, ![1, 1, 8]⟩
abbrev S512x4x8 : Shape := ⟨3, ![512, 4, 8]⟩
abbrev S512x32x1 : Shape := ⟨3, ![512, 32, 1]⟩
abbrev S512x32x8 : Shape := ⟨3, ![512, 32, 8]⟩
abbrev S512x256 : Shape := ⟨2, ![512, 256]⟩
abbrev S512x2 : Shape := ⟨2, ![512, 2]⟩
abbrev S512x2x1 : Shape := ⟨3, ![512, 2, 1]⟩
abbrev S512x2x128 : Shape := ⟨3, ![512, 2, 128]⟩
abbrev S8192x16384 : Shape := ⟨2, ![8192, 16384]⟩
abbrev S1024x4096 : Shape := ⟨2, ![1024, 4096]⟩
abbrev S1x512 : Shape := ⟨2, ![1, 512]⟩
abbrev S1024x512 : Shape := ⟨2, ![1024, 512]⟩
abbrev S512 : Shape := ⟨1, ![512]⟩
abbrev S4x2048x16384 : Shape := ⟨3, ![4, 2048, 16384]⟩

abbrev nBuf : Space → Nat
  | .hbm => 11
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S16384x512, .i32⟩
  | .hbm, ⟨2, _⟩ => ⟨S16384x4, .i32⟩
  | .hbm, ⟨3, _⟩ => ⟨S16384x32, .f32⟩
  | .hbm, ⟨4, _⟩ => ⟨S16384, .f32⟩
  | .hbm, ⟨5, _⟩ => ⟨S8192x4096, .f32⟩
  | .hbm, ⟨6, _⟩ => ⟨S8192x4096, .bf16⟩
  | .hbm, ⟨7, _⟩ => ⟨S1x16384, .f32⟩
  | .hbm, ⟨8, _⟩ => ⟨S16384x4096, .bf16⟩
  | .hbm, ⟨9, _⟩ => ⟨S8192x16384, .f32⟩
  | .hbm, ⟨10, _⟩ => ⟨S4x2048x16384, .f32⟩
  | .local _ .vmem, ⟨0, _⟩ => ⟨S512x512, .i32⟩
  | .local _ .vmem, ⟨1, _⟩ => ⟨S512x512, .i32⟩
  | .local _ .vmem, ⟨2, _⟩ => ⟨S512x4, .i32⟩
  | .local _ .vmem, ⟨3, _⟩ => ⟨S512x4, .i32⟩
  | .local _ .vmem, ⟨4, _⟩ => ⟨S512x32, .f32⟩
  | .local _ .vmem, ⟨5, _⟩ => ⟨S512x32, .f32⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S1024x4096, .bf16⟩
  | .local _ .vmem, ⟨10, _⟩ => ⟨S512x4096, .bf16⟩
  | .local _ .vmem, ⟨11, _⟩ => ⟨S512x4096, .bf16⟩
  | .local _ .vmem, ⟨12, _⟩ => ⟨S1x512, .f32⟩
  | .local _ .vmem, ⟨13, _⟩ => ⟨S1x512, .f32⟩
  | .local _ .vmem, ⟨14, _⟩ => ⟨S1024x512, .f32⟩
  | .local _ .vmem, ⟨15, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x2048x4096_S8192x4096 : S4x2048x4096.ShapeCasts S8192x4096
  bitsLt_bf16_f32 : FTy.bits .bf16 < FTy.bits .f32
  shapeCasts_S16384_S1x16384 : S16384.ShapeCasts S1x16384
  iota_S1x8_d1_w32 : S1x8.Iotas .tc 32 [1]
  shapeCasts_S1x8_S8 : S1x8.ShapeCasts S8
  inb_S512x4_S512x4_0_0 : ∀ a, (![0, 0] : Fin 2 → Nat) a + S512x4.size a ≤ S512x4.size a
  h_S512x4 : 0 < S512x4.numel
  shapeCasts_S512x4_S512x4x1 : S512x4.ShapeCasts S512x4x1
  shapeCasts_S8_S1x1x8 : S8.ShapeCasts S1x1x8
  broadcasts_S512x4x1_S512x4x8 : S512x4x1.Broadcasts S512x4x8
  broadcasts_S1x1x8_S512x4x8 : S1x1x8.Broadcasts S512x4x8
  shapeCasts_S512x4x8_S512x32 : S512x4x8.ShapeCasts S512x32
  inb_S512x32_S512x32_0_0 : ∀ a, (![0, 0] : Fin 2 → Nat) a + S512x32.size a ≤ S512x32.size a
  h_S512x32 : 0 < S512x32.numel
  inb_S512x512_S512x32_0_0 : ∀ a, (![0, 0] : Fin 2 → Nat) a + S512x32.size a ≤ S512x512.size a
  shapeCasts_S512x32_S512x32x1 : S512x32.ShapeCasts S512x32x1
  broadcasts_S512x32x1_S512x32x8 : S512x32x1.Broadcasts S512x32x8
  broadcasts_S1x1x8_S512x32x8 : S1x1x8.Broadcasts S512x32x8
  shapeCasts_S512x32x8_S512x256 : S512x32x8.ShapeCasts S512x256
  slices_S512x32_o0_0_S512x2 : S512x32.Slices ![0, 0] S512x2
  shapeCasts_S512x2_S512x2x1 : S512x2.ShapeCasts S512x2x1
  shapeCasts_S512x2x1_S512x2x1 : S512x2x1.ShapeCasts S512x2x1
  broadcasts_S512x2x1_S512x2x128 : S512x2x1.Broadcasts S512x2x128
  shapeCasts_S512x2x128_S512x256 : S512x2x128.ShapeCasts S512x256
  inb_S512x4096_S512x256_0_0 : ∀ a, (![0, 0] : Fin 2 → Nat) a + S512x256.size a ≤ S512x4096.size a
  h_S512x256 : 0 < S512x256.numel
  packedbf16_S512x4096_S512x256_0_0 : (Rect.unit (s := S512x4096) ![0, 0] S512x256.size inb_S512x4096_S512x256_0_0).PackedRows (EltTy.packing .bf16)
  inb_S512x512_S512x32_0_32 : ∀ a, (![0, 32] : Fin 2 → Nat) a + S512x32.size a ≤ S512x512.size a
  slices_S512x32_o0_2_S512x2 : S512x32.Slices ![0, 2] S512x2
  inb_S512x4096_S512x256_0_256 : ∀ a, (![0, 256] : Fin 2 → Nat) a + S512x256.size a ≤ S512x4096.size a
  packedbf16_S512x4096_S512x256_0_256 : (Rect.unit (s := S512x4096) ![0, 256] S512x256.size inb_S512x4096_S512x256_0_256).PackedRows (EltTy.packing .bf16)
  inb_S512x512_S512x32_0_64 : ∀ a, (![0, 64] : Fin 2 → Nat) a + S512x32.size a ≤ S512x512.size a
  slices_S512x32_o0_4_S512x2 : S512x32.Slices ![0, 4] S512x2
  inb_S512x4096_S512x256_0_512 : ∀ a, (![0, 512] : Fin 2 → Nat) a + S512x256.size a ≤ S512x4096.size a
  packedbf16_S512x4096_S512x256_0_512 : (Rect.unit (s := S512x4096) ![0, 512] S512x256.size inb_S512x4096_S512x256_0_512).PackedRows (EltTy.packing .bf16)
  inb_S512x512_S512x32_0_96 : ∀ a, (![0, 96] : Fin 2 → Nat) a + S512x32.size a ≤ S512x512.size a
  slices_S512x32_o0_6_S512x2 : S512x32.Slices ![0, 6] S512x2
  inb_S512x4096_S512x256_0_768 : ∀ a, (![0, 768] : Fin 2 → Nat) a + S512x256.size a ≤ S512x4096.size a
  packedbf16_S512x4096_S512x256_0_768 : (Rect.unit (s := S512x4096) ![0, 768] S512x256.size inb_S512x4096_S512x256_0_768).PackedRows (EltTy.packing .bf16)
  inb_S512x512_S512x32_0_128 : ∀ a, (![0, 128] : Fin 2 → Nat) a + S512x32.size a ≤ S512x512.size a
  slices_S512x32_o0_8_S512x2 : S512x32.Slices ![0, 8] S512x2
  inb_S512x4096_S512x256_0_1024 : ∀ a, (![0, 1024] : Fin 2 → Nat) a + S512x256.size a ≤ S512x4096.size a
  packedbf16_S512x4096_S512x256_0_1024 : (Rect.unit (s := S512x4096) ![0, 1024] S512x256.size inb_S512x4096_S512x256_0_1024).PackedRows (EltTy.packing .bf16)
  inb_S512x512_S512x32_0_160 : ∀ a, (![0, 160] : Fin 2 → Nat) a + S512x32.size a ≤ S512x512.size a
  slices_S512x32_o0_10_S512x2 : S512x32.Slices ![0, 10] S512x2
  inb_S512x4096_S512x256_0_1280 : ∀ a, (![0, 1280] : Fin 2 → Nat) a + S512x256.size a ≤ S512x4096.size a
  packedbf16_S512x4096_S512x256_0_1280 : (Rect.unit (s := S512x4096) ![0, 1280] S512x256.size inb_S512x4096_S512x256_0_1280).PackedRows (EltTy.packing .bf16)
  inb_S512x512_S512x32_0_192 : ∀ a, (![0, 192] : Fin 2 → Nat) a + S512x32.size a ≤ S512x512.size a
  slices_S512x32_o0_12_S512x2 : S512x32.Slices ![0, 12] S512x2
  inb_S512x4096_S512x256_0_1536 : ∀ a, (![0, 1536] : Fin 2 → Nat) a + S512x256.size a ≤ S512x4096.size a
  packedbf16_S512x4096_S512x256_0_1536 : (Rect.unit (s := S512x4096) ![0, 1536] S512x256.size inb_S512x4096_S512x256_0_1536).PackedRows (EltTy.packing .bf16)
  inb_S512x512_S512x32_0_224 : ∀ a, (![0, 224] : Fin 2 → Nat) a + S512x32.size a ≤ S512x512.size a
  slices_S512x32_o0_14_S512x2 : S512x32.Slices ![0, 14] S512x2
  inb_S512x4096_S512x256_0_1792 : ∀ a, (![0, 1792] : Fin 2 → Nat) a + S512x256.size a ≤ S512x4096.size a
  packedbf16_S512x4096_S512x256_0_1792 : (Rect.unit (s := S512x4096) ![0, 1792] S512x256.size inb_S512x4096_S512x256_0_1792).PackedRows (EltTy.packing .bf16)
  inb_S512x512_S512x32_0_256 : ∀ a, (![0, 256] : Fin 2 → Nat) a + S512x32.size a ≤ S512x512.size a
  slices_S512x32_o0_16_S512x2 : S512x32.Slices ![0, 16] S512x2
  inb_S512x4096_S512x256_0_2048 : ∀ a, (![0, 2048] : Fin 2 → Nat) a + S512x256.size a ≤ S512x4096.size a
  packedbf16_S512x4096_S512x256_0_2048 : (Rect.unit (s := S512x4096) ![0, 2048] S512x256.size inb_S512x4096_S512x256_0_2048).PackedRows (EltTy.packing .bf16)
  inb_S512x512_S512x32_0_288 : ∀ a, (![0, 288] : Fin 2 → Nat) a + S512x32.size a ≤ S512x512.size a
  slices_S512x32_o0_18_S512x2 : S512x32.Slices ![0, 18] S512x2
  inb_S512x4096_S512x256_0_2304 : ∀ a, (![0, 2304] : Fin 2 → Nat) a + S512x256.size a ≤ S512x4096.size a
  packedbf16_S512x4096_S512x256_0_2304 : (Rect.unit (s := S512x4096) ![0, 2304] S512x256.size inb_S512x4096_S512x256_0_2304).PackedRows (EltTy.packing .bf16)
  inb_S512x512_S512x32_0_320 : ∀ a, (![0, 320] : Fin 2 → Nat) a + S512x32.size a ≤ S512x512.size a
  slices_S512x32_o0_20_S512x2 : S512x32.Slices ![0, 20] S512x2
  inb_S512x4096_S512x256_0_2560 : ∀ a, (![0, 2560] : Fin 2 → Nat) a + S512x256.size a ≤ S512x4096.size a
  packedbf16_S512x4096_S512x256_0_2560 : (Rect.unit (s := S512x4096) ![0, 2560] S512x256.size inb_S512x4096_S512x256_0_2560).PackedRows (EltTy.packing .bf16)
  inb_S512x512_S512x32_0_352 : ∀ a, (![0, 352] : Fin 2 → Nat) a + S512x32.size a ≤ S512x512.size a
  slices_S512x32_o0_22_S512x2 : S512x32.Slices ![0, 22] S512x2
  inb_S512x4096_S512x256_0_2816 : ∀ a, (![0, 2816] : Fin 2 → Nat) a + S512x256.size a ≤ S512x4096.size a
  packedbf16_S512x4096_S512x256_0_2816 : (Rect.unit (s := S512x4096) ![0, 2816] S512x256.size inb_S512x4096_S512x256_0_2816).PackedRows (EltTy.packing .bf16)
  inb_S512x512_S512x32_0_384 : ∀ a, (![0, 384] : Fin 2 → Nat) a + S512x32.size a ≤ S512x512.size a
  slices_S512x32_o0_24_S512x2 : S512x32.Slices ![0, 24] S512x2
  inb_S512x4096_S512x256_0_3072 : ∀ a, (![0, 3072] : Fin 2 → Nat) a + S512x256.size a ≤ S512x4096.size a
  packedbf16_S512x4096_S512x256_0_3072 : (Rect.unit (s := S512x4096) ![0, 3072] S512x256.size inb_S512x4096_S512x256_0_3072).PackedRows (EltTy.packing .bf16)
  inb_S512x512_S512x32_0_416 : ∀ a, (![0, 416] : Fin 2 → Nat) a + S512x32.size a ≤ S512x512.size a
  slices_S512x32_o0_26_S512x2 : S512x32.Slices ![0, 26] S512x2
  inb_S512x4096_S512x256_0_3328 : ∀ a, (![0, 3328] : Fin 2 → Nat) a + S512x256.size a ≤ S512x4096.size a
  packedbf16_S512x4096_S512x256_0_3328 : (Rect.unit (s := S512x4096) ![0, 3328] S512x256.size inb_S512x4096_S512x256_0_3328).PackedRows (EltTy.packing .bf16)
  inb_S512x512_S512x32_0_448 : ∀ a, (![0, 448] : Fin 2 → Nat) a + S512x32.size a ≤ S512x512.size a
  slices_S512x32_o0_28_S512x2 : S512x32.Slices ![0, 28] S512x2
  inb_S512x4096_S512x256_0_3584 : ∀ a, (![0, 3584] : Fin 2 → Nat) a + S512x256.size a ≤ S512x4096.size a
  packedbf16_S512x4096_S512x256_0_3584 : (Rect.unit (s := S512x4096) ![0, 3584] S512x256.size inb_S512x4096_S512x256_0_3584).PackedRows (EltTy.packing .bf16)
  inb_S512x512_S512x32_0_480 : ∀ a, (![0, 480] : Fin 2 → Nat) a + S512x32.size a ≤ S512x512.size a
  slices_S512x32_o0_30_S512x2 : S512x32.Slices ![0, 30] S512x2
  inb_S512x4096_S512x256_0_3840 : ∀ a, (![0, 3840] : Fin 2 → Nat) a + S512x256.size a ≤ S512x4096.size a
  packedbf16_S512x4096_S512x256_0_3840 : (Rect.unit (s := S512x4096) ![0, 3840] S512x256.size inb_S512x4096_S512x256_0_3840).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1x512_S1x512_0_0 : ∀ a, (![0, 0] : Fin 2 → Nat) a + S1x512.size a ≤ S1x512.size a
  h_S1x512 : 0 < S1x512.numel
  shapeCasts_S1x512_S512 : S1x512.ShapeCasts S512
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S8192x16384_S4x2048x16384 : S8192x16384.ShapeCasts S4x2048x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .i32 = 32 ∨ (Rect.block (s := S16384x512) S512x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4.size a ≤ S16384x4.size a
  hwx0_1 : ∀ i : grid0.Coords, EltTy.bits .i32 = 32 ∨ (Rect.block (s := S16384x4) S512x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S16384x32.size a
  hwx0_2 : ∀ i : grid0.Coords, EltTy.bits .f32 = 32 ∨ (Rect.block (s := S16384x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .bf16 = 32 ∨ (Rect.block (s := S16384x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .bf16 = 32 ∨ (Rect.block (s := S8192x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S16384x4096.size a
  hwx1_1 : ∀ i : grid1.Coords, EltTy.bits .bf16 = 32 ∨ (Rect.block (s := S16384x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x16384.size a
  hwx1_2 : ∀ i : grid1.Coords, EltTy.bits .f32 = 32 ∨ (Rect.block (s := S1x16384) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x16384.size a
  hwx1_3 : ∀ i : grid1.Coords, EltTy.bits .f32 = 32 ∨ (Rect.block (s := S8192x16384) S1024x512.size (cc1_transform_3 i) (hinb1_3 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S16384x512 : Shape := ⟨2, ![16384, 512]⟩
abbrev S16384x4 : Shape := ⟨2, ![16384, 4]⟩
abbrev S16384x32 : Shape := ⟨2, ![16384, 32]⟩
abbrev S16384 : Shape := ⟨1, ![16384]⟩
abbrev S8 : Shape := ⟨1, ![8]⟩
abbrev S_ : Shape := ⟨0, ![]⟩
abbrev S16384x512x1 : Shape := ⟨3, ![16384, 512, 1]⟩
abbrev S1x1x8 : Shape := ⟨3, ![1, 1, 8]⟩
abbrev S16384x512x8 : Shape := ⟨3, ![16384, 512, 8]⟩
abbrev S16384x4096 : Shape := ⟨2, ![16384, 4096]⟩
abbrev S16384x4x1 : Shape := ⟨3, ![16384, 4, 1]⟩
abbrev S16384x4x8 : Shape := ⟨3, ![16384, 4, 8]⟩
abbrev S16384x32x128 : Shape := ⟨3, ![16384, 32, 128]⟩
abbrev S4x2048x16384 : Shape := ⟨3, ![4, 2048, 16384]⟩
abbrev S1x1x16384 : Shape := ⟨3, ![1, 1, 16384]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x512, .i32⟩
  | .hbm, ⟨2, _⟩ => ⟨S16384x4, .i32⟩
  | .hbm, ⟨3, _⟩ => ⟨S16384x32, .f32⟩
  | .hbm, ⟨4, _⟩ => ⟨S16384, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S16384x512x1, .i32⟩
  | .hbm, ⟨10, _⟩ => ⟨S1x1x8, .i32⟩
  | .hbm, ⟨11, _⟩ => ⟨S16384x512x8, .i32⟩
  | .hbm, ⟨12, _⟩ => ⟨S16384x512x8, .i32⟩
  | .hbm, ⟨13, _⟩ => ⟨S16384x512x8, .i32⟩
  | .hbm, ⟨14, _⟩ => ⟨S_, .i32⟩
  | .hbm, ⟨15, _⟩ => ⟨S16384x512x8, .i32⟩
  | .hbm, ⟨16, _⟩ => ⟨S16384x512x8, .i32⟩
  | .hbm, ⟨17, _⟩ => ⟨S16384x4096, .i32⟩
  | .hbm, ⟨18, _⟩ => ⟨S16384x4096, .f32⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S16384x4x1, .i32⟩
  | .hbm, ⟨24, _⟩ => ⟨S1x1x8, .i32⟩
  | .hbm, ⟨25, _⟩ => ⟨S16384x4x8, .i32⟩
  | .hbm, ⟨26, _⟩ => ⟨S16384x4x8, .i32⟩
  | .hbm, ⟨27, _⟩ => ⟨S16384x4x8, .i32⟩
  | .hbm, ⟨28, _⟩ => ⟨S_, .i32⟩
  | .hbm, ⟨29, _⟩ => ⟨S16384x4x8, .i32⟩
  | .hbm, ⟨30, _⟩ => ⟨S16384x4x8, .i32⟩
  | .hbm, ⟨31, _⟩ => ⟨S16384x32, .i32⟩
  | .hbm, ⟨32, _⟩ => ⟨S16384x32, .f32⟩
  | .hbm, ⟨33, _⟩ => ⟨S16384x32x128, .f32⟩
  | .hbm, ⟨34, _⟩ => ⟨S16384x4096, .f32⟩
  | .hbm, ⟨35, _⟩ => ⟨S16384x32x128, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S4x2048x16384, .f32⟩
  | .hbm, ⟨40, _⟩ => ⟨S1x1x16384, .f32⟩
  | .hbm, ⟨41, _⟩ => ⟨S4x2048x16384, .f32⟩
  | .hbm, ⟨42, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S16384x512_S16384x512x1_0_1 : S16384x512.BroadcastsInDim S16384x512x1 (![0, 1] : Fin 2 → Fin S16384x512x1.rank)
  bcast_S8_S1x1x8_2 : S8.BroadcastsInDim S1x1x8 (![2] : Fin 1 → Fin S1x1x8.rank)
  bcast_S16384x512x1_S16384x512x8_0_1_2 : S16384x512x1.BroadcastsInDim S16384x512x8 (![0, 1, 2] : Fin 3 → Fin S16384x512x8.rank)
  bcast_S1x1x8_S16384x512x8_0_1_2 : S1x1x8.BroadcastsInDim S16384x512x8 (![0, 1, 2] : Fin 3 → Fin S16384x512x8.rank)
  bcast_S_S16384x512x8 : S_.BroadcastsInDim S16384x512x8 (![] : Fin 0 → Fin S16384x512x8.rank)
  shapeCasts_S16384x512x8_S16384x4096 : S16384x512x8.ShapeCasts S16384x4096
  bcast_S16384x4_S16384x4x1_0_1 : S16384x4.BroadcastsInDim S16384x4x1 (![0, 1] : Fin 2 → Fin S16384x4x1.rank)
  bcast_S16384x4x1_S16384x4x8_0_1_2 : S16384x4x1.BroadcastsInDim S16384x4x8 (![0, 1, 2] : Fin 3 → Fin S16384x4x8.rank)
  bcast_S1x1x8_S16384x4x8_0_1_2 : S1x1x8.BroadcastsInDim S16384x4x8 (![0, 1, 2] : Fin 3 → Fin S16384x4x8.rank)
  bcast_S_S16384x4x8 : S_.BroadcastsInDim S16384x4x8 (![] : Fin 0 → Fin S16384x4x8.rank)
  shapeCasts_S16384x4x8_S16384x32 : S16384x4x8.ShapeCasts S16384x32
  bcast_S16384x32_S16384x32x128_0_1 : S16384x32.BroadcastsInDim S16384x32x128 (![0, 1] : Fin 2 → Fin S16384x32x128.rank)
  shapeCasts_S16384x32x128_S16384x4096 : S16384x32x128.ShapeCasts S16384x4096
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Boundary.lean ====
/-
  The contents of the buffers between the program's segments.

  Before the first region the host reshapes the activations [4, 2048, 4096] to [8192, 4096] (and narrows their format, which
  changes nothing over the extended reals) and the bias [16384] to a row [1, 16384]; the three quantised arguments are
  untouched. The first region's output array is the weight the second region reads; the second region's output
  [8192, 16384] is reshaped to the result [4, 2048, 16384]. A reshape keeps row-major positions: row 2048·b + s of a
  matrix is (b, s) of the rank-3 array.
-/
import proofs.«427535_j11630771438119_3_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Boundary

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## Entering the first region -/

theorem entry_qweight (c : Dev nD) : V1 m ρ c main_arg1 = m ((c : Thread nD τ).loc main_arg1) := by
  show StableHlo.after hostOps0 (W0 m ρ c) (Proc.devRef .tc main_arg1) = _
  after_results
theorem entry_qzeros (c : Dev nD) : V1 m ρ c main_arg2 = m ((c : Thread nD τ).loc main_arg2) := by
  show StableHlo.after hostOps0 (W0 m ρ c) (Proc.devRef .tc main_arg2) = _
  after_results
theorem entry_scales (c : Dev nD) : V1 m ρ c main_arg3 = m ((c : Thread nD τ).loc main_arg3) := by
  show StableHlo.after hostOps0 (W0 m ρ c) (Proc.devRef .tc main_arg3) = _
  after_results

/-- The activations as a matrix: the reshape of the argument, its format narrowed. -/
theorem entry_act (c : Dev nD) :
    (V1 m ρ c main_v1 : S8192x4096.Idx → EReal)
      = truncf (F := Ideal) .bf16 (shapeCast S8192x4096 (m ((c : Thread nD τ).loc main_arg0) : S4x2048x4096.Idx → EReal) shapeCasts_S4x2048x4096_S8192x4096) bitsLt_bf16_f32 := by
  show StableHlo.after hostOps0 (W0 m ρ c) (Proc.devRef .tc main_v1) = _
  after_results; rfl

/-- The bias as a row. -/
theorem entry_bias (c : Dev nD) :
    (V1 m ρ c main_v2 : S1x16384.Idx → EReal)
      = shapeCast S1x16384 (m ((c : Thread nD τ).loc main_arg4) : S16384.Idx → EReal) shapeCasts_S16384_S1x16384 := by
  show StableHlo.after hostOps0 (W0 m ρ c) (Proc.devRef .tc main_v2) = _
  after_results; rfl

/-- Row `2048·b + s`, column `k` of the activation matrix is `x[b, s, k]`. -/
theorem act_at (c : Dev nD) (b : Fin 4) (s : Fin 2048) (k : Fin 4096) :
    (V1 m ρ c main_v1 : S8192x4096.Idx → EReal) (ix2 (⟨2048 * b.val + s.val, by omega⟩ : Fin 8192) k)
      = (m ((c : Thread nD τ).loc main_arg0) : S4x2048x4096.Idx → EReal) (ix3 b s k) := by
  rw [entry_act]
  show shapeCast S8192x4096 (m ((c : Thread nD τ).loc main_arg0) : S4x2048x4096.Idx → EReal) shapeCasts_S4x2048x4096_S8192x4096 _ = _
  refine shapeCast_apply _ _ _ (ix3 b s k) ?_
  rw [Shape.rowMajor_val_two, Shape.rowMajor_val_three]
  show (b.val * 2048 + s.val) * 4096 + k.val = (2048 * b.val + s.val) * 4096 + k.val
  omega

/-- Entry `(0, n)` of the bias row is `bias[n]`. -/
theorem bias_at (c : Dev nD) (n : Fin 16384) :
    (V1 m ρ c main_v2 : S1x16384.Idx → EReal) (ix2 (0 : Fin 1) n)
      = (m ((c : Thread nD τ).loc main_arg4) : S16384.Idx → EReal) (ix1 n) := by
  rw [entry_bias]
  refine shapeCast_apply _ _ _ (ix1 n) ?_
  rw [Shape.rowMajor_val_two, Shape.rowMajor_val_one]
  show n.val = 0 * 16384 + n.val
  omega

/-! ## Between the regions -/

/-- The first region leaves the activations and the bias row as it found them, and its output array is the weight. -/
theorem mid_act (c : Dev nD) : V2 m ρ c main_v1 = V1 m ρ c main_v1 := W2_of_ne m ρ c main_v1 (by decide)
theorem mid_bias (c : Dev nD) : V2 m ρ c main_v2 = V1 m ρ c main_v2 := W2_of_ne m ρ c main_v2 (by decide)
theorem mid_weight (c : Dev nD) : V2 m ρ c main_v3 = (dat0 (V1 m ρ) c).arrAt 3 cfg0.N := W2_arr m ρ c 3

/-! ## Leaving the second region -/

theorem exit_out (c : Dev nD) : W3 m ρ c (Proc.devRef .tc main_v4) = (dat1 (V2 m ρ) c).arrAt 3 cfg1.N := W3_arr m ρ c 3

/-- The result is the second region's output, reshaped. -/
theorem result_reshape (c : Dev nD) :
    (W4 m ρ c (Proc.devRef .tc main_v5) : S4x2048x16384.Idx → EReal)
      = shapeCast S4x2048x16384 (W3 m ρ c (Proc.devRef .tc main_v4) : S8192x16384.Idx → EReal) shapeCasts_S8192x16384_S4x2048x16384 := by
  show StableHlo.after hostOps2 (W3 m ρ c) (Proc.devRef .tc main_v5) = _
  after_results; rfl

/-- `result[b, s, n]` is row `2048·b + s`, column `n` of the second region's output. -/
theorem result_at (c : Dev nD) (b : Fin 4) (s : Fin 2048) (n : Fin 16384) :
    (W4 m ρ c (Proc.devRef .tc main_v5) : S4x2048x16384.Idx → EReal) (ix3 b s n)
      = (W3 m ρ c (Proc.devRef .tc main_v4) : S8192x16384.Idx → EReal) (ix2 (⟨2048 * b.val + s.val, by omega⟩ : Fin 8192) n) := by
  rw [result_reshape]
  refine shapeCast_apply _ _ _ (ix2 (⟨2048 * b.val + s.val, by omega⟩ : Fin 8192) n) ?_
  rw [Shape.rowMajor_val_two, Shape.rowMajor_val_three]
  show (2048 * b.val + s.val) * 16384 + n.val = (b.val * 2048 + s.val) * 16384 + n.val
  omega

end Cert.KernelIdeal.Boundary

end
-- ==== Proof.MatmulRegion.lean ====
/-
  The second region: a dense product with the dequantised weight, plus the bias.

  Each grid point (i, j) of the 8 × 32 grid loads rows [1024·i, 1024·i + 1024) of the activations (all 4096 columns), rows
  [512·j, 512·j + 512) of the weight (all 4096 columns) and columns [512·j, 512·j + 512) of the bias row, and stores
  `Σ_k a[r, k] · w[c, k] + bias[c]` into the (i, j) block of the 8192 × 16384 output. The blocks tile the output, so the
  array the region leaves is that one expression of the three arrays it read, at every index.
-/
import proofs.«427535_j11630771438119_3_alg».proof.Proof.Gen.KernelIdeal.Frame
import Idealize.ShloMosaic.Lib.ValueIdx
import Idealize.ShloMosaic.Lib.Pipeline.Value
import Idealize.ShloMosaic.PureOps.Ideal.Laws

set_option maxRecDepth 16384

noncomputable section

namespace Cert.KernelIdeal.MatmulRegion

open Idealize.ShloMosaic Idealize.ShloMosaic.TcCoe Idealize.SL.Sem Idealize.ShloMosaic.ValueIdx
open Idealize.ShloMosaic.Pipeline (Dat Cfg Window)
open Cert.KernelIdeal Cert.KernelIdeal.Gen

/-! ## The product with bias as one function of whole arrays -/

/-- `Σ_k a[r, k] · w[c, k] + bias[0, c]` at the output index `(r, c)`. -/
def prodBias {R C : Nat} (a : (⟨2, ![R, 4096]⟩ : Shape).Idx → EReal) (w : (⟨2, ![C, 4096]⟩ : Shape).Idx → EReal)
    (bias : (⟨2, ![1, C]⟩ : Shape).Idx → EReal) : (⟨2, ![R, C]⟩ : Shape).Idx → EReal :=
  fun i => (∑ k : Fin 4096, a (ix2 (i 0) k) * w (ix2 (i 1) k)) + bias (ix2 (0 : Fin 1) (i 1))

/-! ## The body's arithmetic at an index -/

theorem lhs_axis0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs_axis1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs_axis0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs_axis1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

/-- The matrix unit's product into a zero accumulator, contracting both operands' second axis, is the plain sum. -/
theorem matmul_at (x0 : FVec Ideal S1024x4096 .bf16) (x1 : FVec Ideal S512x4096 .bf16) (i : S1024x512.Idx) :
    matmul (F := Ideal) (φ₁ := .bf16) (φ₂ := .bf16) dot_S1024x4096_S512x4096_S1024x512_1_1_0_0_n_n none x0 x1 (constant S1024x512 .f32 0x00000000#32) i
      = ∑ k : Fin 4096, x0 (ix2 (i 0) k) * x1 (ix2 (i 1) k) := by
  simp only [matmul]
  rw [Ideal.matmul_constant_zero_apply, ← Equiv.sum_comp (ValueIdx.contrEquiv1 dot_S1024x4096_S512x4096_S1024x512_1_1_0_0_n_n 4096 rfl rfl).symm]
  refine Finset.sum_congr rfl fun k _ => ?_
  have hk := ValueIdx.contrEquiv1_symm_val dot_S1024x4096_S512x4096_S1024x512_1_1_0_0_n_n 4096 rfl rfl k
  have el : dot_S1024x4096_S512x4096_S1024x512_1_1_0_0_n_n.lhsIdx i ((ValueIdx.contrEquiv1 dot_S1024x4096_S512x4096_S1024x512_1_1_0_0_n_n 4096 rfl rfl).symm k) = ix2 (i 0) k := funext fun a => Fin.ext (by
    match a with
    | ⟨0, _⟩ => exact lhs_axis0 _ _
    | ⟨1, _⟩ => exact (lhs_axis1 _ _).trans hk)
  have er : dot_S1024x4096_S512x4096_S1024x512_1_1_0_0_n_n.rhsIdx i ((ValueIdx.contrEquiv1 dot_S1024x4096_S512x4096_S1024x512_1_1_0_0_n_n 4096 rfl rfl).symm k) = ix2 (i 1) k := funext fun a => Fin.ext (by
    match a with
    | ⟨0, _⟩ => exact rhs_axis0 _ _
    | ⟨1, _⟩ => exact (rhs_axis1 _ _).trans hk)
  rw [el, er]
  rfl

/-- The bias row, passed through a rank-1 view and back, broadcast over the rows: at `(r, c)` it is the row's entry `c`. -/
theorem biasBroadcast_at (x2 : Vec Ideal S1x512 .f32) (i : S1024x512.Idx) :
    broadcastTo S1024x512 (shapeCast S1x512 (shapeCast S512 x2 shapeCasts_S1x512_S512) shapeCasts_S512_S1x512) broadcasts_S1x512_S1024x512 i
      = x2 (ix2 (0 : Fin 1) (i 1)) := by
  rw [shapeCast_shapeCast]
  refine broadcastTo_apply x2 broadcasts_S1x512_S1024x512 i (ix2 (0 : Fin 1) (i 1)) fun a => ?_
  match a with
  | ⟨0, _⟩ => show (0 : Nat) = if (1 : Nat) = 1 then 0 else _; rw [if_pos rfl]
  | ⟨1, _⟩ => show (i 1).val = if (512 : Nat) = 1 then 0 else (i 1).val; rw [if_neg (by decide)]

/-- The body's stored value is the product with bias of its three loaded blocks. -/
theorem pay_eq (x0 : Vec Ideal S1024x4096 .bf16) (x1 : Vec Ideal S512x4096 .bf16) (x2 : Vec Ideal S1x512 .f32) :
    k1_pay1 (F := Ideal) x0 x1 x2 = prodBias (R := 1024) (C := 512) x0 x1 x2 := by
  funext i
  unfold k1_pay1
  rw [shapeCast_self, shapeCast_self]
  show matmul (F := Ideal) (φ₁ := .bf16) (φ₂ := .bf16) dot_S1024x4096_S512x4096_S1024x512_1_1_0_0_n_n none x0 x1 (constant S1024x512 .f32 0x00000000#32) i
      + broadcastTo S1024x512 (shapeCast S1x512 (shapeCast S512 x2 shapeCasts_S1x512_S512) shapeCasts_S512_S1x512) broadcasts_S1x512_S1024x512 i = _
  rw [matmul_at, biasBroadcast_at]
  rfl

theorem hz : (![0, 0] : Fin 2 → Nat) = fun _ => 0 := funext fun a => by fin_cases a <;> rfl

/-- What the body leaves in the output's buffer: the product with bias of the input blocks. -/
theorem out_eq (x0 : Vec Ideal S1024x4096 .bf16) (x1 : Vec Ideal S512x4096 .bf16) (x2 : Vec Ideal S1x512 .f32) :
    out1_3 (F := Ideal) x0 x1 x2 = prodBias (R := 1024) (C := 512) x0 x1 x2 := by
  unfold out1_3
  rw [View.canon_unit_zero hz]
  simp only [View.ld_unit_zero (S := S1024x4096) hz, View.ld_unit_zero (S := S512x4096) hz, View.ld_unit_zero (S := S1x512) hz]
  exact pay_eq x0 x1 x2

/-! ## From the blocks to the array -/

variable (V : (c : Dev nD) → (b : Ref sig .tc) → Buf (Elt Ideal) ((c : Thread nD τ).loc b))

/-- The three arrays the region reads, as it finds them: the activations, the weight, the bias row. -/
abbrev actArr (c : Dev nD) : S8192x4096.Idx → EReal := V c main_v1
abbrev wtArr (c : Dev nD) : S16384x4096.Idx → EReal := V c main_v3
abbrev biasRow (c : Dev nD) : S1x16384.Idx → EReal := V c main_v2

/-- The index maps over the grid: the activations' block row is the output's, the weight's block row and the bias's
    block column are the output's block column, every other block index is zero, and the output's stay in range. -/
theorem idx_facts : ∀ t : Fin cfg1.N,
    win1_0.index t (0 : Fin 2) = win1_3.index t (0 : Fin 2) ∧ win1_0.index t (1 : Fin 2) = 0
    ∧ win1_1.index t (0 : Fin 2) = win1_3.index t (1 : Fin 2) ∧ win1_1.index t (1 : Fin 2) = 0
    ∧ win1_2.index t (0 : Fin 2) = 0 ∧ win1_2.index t (1 : Fin 2) = win1_3.index t (1 : Fin 2)
    ∧ win1_3.index t (0 : Fin 2) ≤ 7 ∧ win1_3.index t (1 : Fin 2) ≤ 31 :=
  (by decide +kernel : ∀ t : Fin grid1.N, _)

/-- Every block of the output is some point's. -/
theorem idx_onto : ∀ (q0 : Fin 8) (q1 : Fin 32), ∃ t : Fin cfg1.N, win1_3.index t = ![q0.val, q1.val] :=
  (by decide +kernel : ∀ (q0 : Fin 8) (q1 : Fin 32), ∃ t : Fin grid1.N, win1_3.index t = ![q0.val, q1.val])

/-- What point `t` writes back is its block of the product with bias of the whole arrays. -/
theorem flushed_eq (c : Dev nD) (t : Fin cfg1.N) :
    (dat1 (F := Ideal) V c).flushed 3 t
      = ((cfg1.win 3).blk t).view.read (Elt Ideal) (prodBias (R := 8192) (C := 16384) (actArr V c) (wtArr V c) (biasRow V c)) := by
  show (cfg1.win 3).cut (grid1.coords t) ((dat1 V c).after 3 t) = _
  rw [after1_3, out_eq (iblk1 V c 0 t) (iblk1 V c 1 t) (iblk1 V c 2 t)]
  obtain ⟨e0, e1, e2, e3, e4, e5, e6, e7⟩ := idx_facts t
  funext j
  show prodBias (R := 1024) (C := 512) (iblk1 V c 0 t) (iblk1 V c 1 t) (iblk1 V c 2 t) j
    = prodBias (R := 8192) (C := 16384) (actArr V c) (wtArr V c) (biasRow V c) (((cfg1.win 3).blk t).view.emb j)
  have hj0 : (j 0).val < 1024 := (j 0).isLt
  have hj1 : (j 1).val < 512 := (j 1).isLt
  unfold prodBias
  have ha : ∀ k : Fin 4096, iblk1 V c 0 t (ix2 (j 0) k) = actArr V c (ix2 ((((cfg1.win 3).blk t).view.emb j) 0) k) := fun k => by
    show actArr V c (((cfg1.win 0).blk t).view.emb (ix2 (j 0) k)) = _
    refine congrArg (actArr V c) (funext fun a => Fin.ext ?_)
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 4096 + 1 * k.val = k.val; omega
  have hw : ∀ k : Fin 4096, iblk1 V c 1 t (ix2 (j 1) k) = wtArr V c (ix2 ((((cfg1.win 3).blk t).view.emb j) 1) k) := fun k => by
    show wtArr V c (((cfg1.win 1).blk t).view.emb (ix2 (j 1) k)) = _
    refine congrArg (wtArr V c) (funext fun a => Fin.ext ?_)
    match a with
    | ⟨0, _⟩ => show win1_1.index t (0 : Fin 2) * 512 + 1 * (j 1).val = win1_3.index t (1 : Fin 2) * 512 + 1 * (j 1).val; omega
    | ⟨1, _⟩ => show win1_1.index t (1 : Fin 2) * 4096 + 1 * k.val = k.val; omega
  have hb : iblk1 V c 2 t (ix2 (0 : Fin 1) (j 1)) = biasRow V c (ix2 (0 : Fin 1) ((((cfg1.win 3).blk t).view.emb j) 1)) := by
    show biasRow V c (((cfg1.win 2).blk t).view.emb (ix2 (0 : Fin 1) (j 1))) = _
    refine congrArg (biasRow V c) (funext fun a => Fin.ext ?_)
    match a with
    | ⟨0, _⟩ => show win1_2.index t (0 : Fin 2) * 1 + 1 * 0 = 0; omega
    | ⟨1, _⟩ => show win1_2.index t (1 : Fin 2) * 512 + 1 * (j 1).val = win1_3.index t (1 : Fin 2) * 512 + 1 * (j 1).val; omega
  rw [hb]
  refine congrArg (· + _) (Finset.sum_congr rfl fun k _ => ?_)
  rw [ha k, hw k]

/-- An index of the output is in point `t`'s block iff each coordinate is in the block's range on its axis. -/
theorem mem_blk (t : Fin cfg1.N) (i : S8192x16384.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v4).slice (win1_3.rect t)).set ↔ _
  rw [View.set_slice_whole, Rect.mem_set_unit]
  exact Iff.rfl

/-- The output's blocks tile it: the index `(r, c)` is in the block of the point with block row `r / 1024` and block column `c / 512`. -/
theorem cover (i : S8192x16384.Idx) : ∃ t : Fin cfg1.N, (cfg1.win 3).flush t = true ∧ i ∈ ((cfg1.win 3).blk t).view.set := by
  have hi0 : (i 0).val < 8192 := (i 0).isLt
  have hi1 : (i 1).val < 16384 := (i 1).isLt
  obtain ⟨t, ht⟩ := idx_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- THE ARRAY the region leaves: the product with bias of the arrays it read, at every index. -/
theorem matmul_final (c : Dev nD) :
    (dat1 (F := Ideal) V c).arrAt 3 cfg1.N
      = prodBias (R := 8192) (C := 16384) (actArr V c) (wtArr V c) (biasRow V c) :=
  (dat1 V c).arrAt_eq_of_cover 3 _ (fun t _ => flushed_eq V c t) cover

end Cert.KernelIdeal.MatmulRegion

end
-- ==== Proof.Spec.lean ====
/-
  A linear layer over 4-bit quantised weights, as functions of coordinates.

  A packed 32-bit word holds eight 4-bit fields; field `b` of the word `w` is `(w >>ₛ 4·b) & 15`. Column `k` of row
  `n` of the weight is quantised as field `k % 8` of the packed word `k / 8` of that row; its zero point is field
  `(k / 128) % 8` of the packed zero word `k / 1024` (one zero point per group of 128 columns, eight to a word), its
  scale the entry `k / 128`. The weight is `(q − z) · s` and the layer's output at `(b, s, n)` is
  `Σ_k x[b, s, k] · W[n, k] + bias[n]`, all over the extended reals.
-/
import Idealize.ShloMosaic.PureOps.Ideal
import Idealize.ShloMosaic.Lib.ValueIdx

noncomputable section

namespace Cert.QuantLinear

open Idealize.ShloMosaic Idealize.ShloMosaic.ValueIdx

/-- The shift that brings field `b` of a packed word down to its low four bits: `4 · b` as a 32-bit word. -/
def fieldShift (b : ℕ) : BitVec 32 := IntOp.muli (BitVec.ofNat 32 b) 4#32

/-- A field's shift is below the word's width. -/
theorem fieldShift_lt {b : ℕ} (hb : b < 8) : (fieldShift b).toNat < 32 := by
  interval_cases b <;> decide

/-- Field `b` of the packed word `w`. -/
def field (w : BitVec 32) (b : ℕ) : BitVec 32 := IntOp.andi (w.sshiftRight' (fieldShift b)) 15#32

/-- On either arithmetic unit the signed right shift by a field's shift is the plain one: the amount is below the
    width, where every unit's shift is MLIR's. -/
theorem shrsi_fieldShift (u : ArithUnit) (w : BitVec 32) {b : ℕ} (hb : b < 8) :
    IntOp.shrsi u w (fieldShift b) = w.sshiftRight' (fieldShift b) :=
  if_pos (fieldShift_lt hb)

/-- A field of a word, masked after either unit's shift. -/
theorem andi_shrsi_fieldShift (u : ArithUnit) (w : BitVec 32) {b : ℕ} (hb : b < 8) :
    IntOp.andi (IntOp.shrsi u w (fieldShift b)) 15#32 = field w b := by
  rw [shrsi_fieldShift u w hb]; rfl

/-- A 4-bit field as an extended real: the integer it holds. -/
def fieldVal (w : BitVec 32) (b : ℕ) : EReal := FloatOps.sitofp (F := Ideal) .f32 (field w b)

/-- Row `n`, column `k` of the dequantised weight: `(q − z) · s` with `q` field `k % 8` of packed word `k / 8`,
    `z` field `(k / 128) % 8` of packed zero word `k / 1024`, `s` the scale of group `k / 128`. -/
def weight (qw : (⟨2, ![16384, 512]⟩ : Shape).Idx → BitVec 32) (qz : (⟨2, ![16384, 4]⟩ : Shape).Idx → BitVec 32)
    (sc : (⟨2, ![16384, 32]⟩ : Shape).Idx → EReal) (n : Fin 16384) (k : Fin 4096) : EReal :=
  (fieldVal (qw (ix2 n (⟨k.val / 8, by omega⟩ : Fin 512))) (k.val % 8)
      - fieldVal (qz (ix2 n (⟨k.val / 1024, by omega⟩ : Fin 4))) (k.val / 128 % 8))
    * sc (ix2 n (⟨k.val / 128, by omega⟩ : Fin 32))

/-- The layer's output at batch `b`, position `s`, output feature `n`. -/
def output (x : (⟨3, ![4, 2048, 4096]⟩ : Shape).Idx → EReal)
    (qw : (⟨2, ![16384, 512]⟩ : Shape).Idx → BitVec 32) (qz : (⟨2, ![16384, 4]⟩ : Shape).Idx → BitVec 32)
    (sc : (⟨2, ![16384, 32]⟩ : Shape).Idx → EReal) (bias : (⟨1, ![16384]⟩ : Shape).Idx → EReal)
    (b : Fin 4) (s : Fin 2048) (n : Fin 16384) : EReal :=
  (∑ k : Fin 4096, x (ix3 b s k) * weight qw qz sc n k) + bias (ix1 n)

/-- The output as an array. -/
def outputArr (x : (⟨3, ![4, 2048, 4096]⟩ : Shape).Idx → EReal)
    (qw : (⟨2, ![16384, 512]⟩ : Shape).Idx → BitVec 32) (qz : (⟨2, ![16384, 4]⟩ : Shape).Idx → BitVec 32)
    (sc : (⟨2, ![16384, 32]⟩ : Shape).Idx → EReal) (bias : (⟨1, ![16384]⟩ : Shape).Idx → EReal) :
    (⟨3, ![4, 2048, 16384]⟩ : Shape).Idx → EReal :=
  fun i => output x qw qz sc bias (i 0) (i 1) (i 2)

/-- The dequantised weight as an array. -/
def weightArr (qw : (⟨2, ![16384, 512]⟩ : Shape).Idx → BitVec 32) (qz : (⟨2, ![16384, 4]⟩ : Shape).Idx → BitVec 32)
    (sc : (⟨2, ![16384, 32]⟩ : Shape).Idx → EReal) : (⟨2, ![16384, 4096]⟩ : Shape).Idx → EReal :=
  fun i => weight qw qz sc (i 0) (i 1)

end Cert.QuantLinear

end
-- ==== Proof.WeightChunks.lean ====
/-
  The first region's body, at an index.

  The body unpacks a 512-row block of packed words sixteen times, 256 columns at a time. Every chunk does the same thing to
  its 32 packed words per row: repeat each word along eight fields, shift field `b` down by `4 · b`, mask to four bits, lay
  the (word, field) pairs out as 256 columns, convert; subtract the zero point and multiply by the scale of the column's
  group, the chunk's two groups each repeated over their 128 columns. The sixteen stores differ only in which words and
  which groups they take, so one function of the chunk's offsets describes them all, and at local `(p, q)` of the chunk
  whose groups start at `o` it is the block's weight at column `128 · o + q`. The stores' rectangles tile the block, so the
  buffer the body leaves is the block's weight at every index.
-/
import proofs.«427535_j11630771438119_3_alg».proof.Proof.Gen.KernelIdeal.Frame
import proofs.«427535_j11630771438119_3_alg».proof.Proof.Spec
import Idealize.ShloMosaic.Lib.ValueIdx
import Idealize.ShloMosaic.Lib.Pipeline.Value

set_option maxRecDepth 16384

noncomputable section

namespace Cert.KernelIdeal.WeightChunks
open Idealize.ShloMosaic Idealize.ShloMosaic.TcCoe Idealize.SL.Sem Idealize.ShloMosaic.ValueIdx
open Cert.KernelIdeal Cert.KernelIdeal.Gen
open Cert.QuantLinear

/-! ## The shift amounts -/

/-- The vector of shift amounts `4 · b`, read at its one coordinate. -/
theorem shiftAmount_apply (b : Fin 8) : k0_pay2 (ix1 b) = fieldShift b.val := by
  unfold k0_pay2
  show IntOp.muli (shapeCast S8 (iota .tc S1x8 32 [1] iota_S1x8_d1_w32) shapeCasts_S1x8_S8 (ix1 b)) 4#32 = _
  rw [shapeCast_apply _ _ (ix1 b) (ix2 (0 : Fin 1) b)
    (by rw [Shape.rowMajor_val_two, Shape.rowMajor_val_one]; show 0 * 8 + b.val = b.val; omega)]
  rw [iota_single_apply]
  rfl

/-- Broadcast along the rows and the 32 packed words of a row, the shift amount depends on the field alone. -/
theorem shiftVec32_apply (p : Fin 512) (g : Fin 32) (b : Fin 8) :
    broadcastTo S512x32x8 (shapeCast S1x1x8 k0_pay2 shapeCasts_S8_S1x1x8) broadcasts_S1x1x8_S512x32x8 (ix3 p g b)
      = fieldShift b.val := by
  refine (broadcastTo_apply _ _ (ix3 p g b) (ix3 (0 : Fin 1) (0 : Fin 1) b) ?_).trans ?_
  · intro a
    match a with
    | ⟨0, _⟩ => rfl
    | ⟨1, _⟩ => rfl
    | ⟨2, _⟩ => rfl
  refine (shapeCast_apply _ _ (ix3 (0 : Fin 1) (0 : Fin 1) b) (ix1 b) ?_).trans (shiftAmount_apply b)
  rw [Shape.rowMajor_val_one, Shape.rowMajor_val_three]
  show b.val = (0 * 1 + 0) * 8 + b.val
  omega

/-- The same over the 4 packed zero-point words of a row. -/
theorem shiftVec4_apply (p : Fin 512) (g : Fin 4) (b : Fin 8) :
    broadcastTo S512x4x8 (shapeCast S1x1x8 k0_pay2 shapeCasts_S8_S1x1x8) broadcasts_S1x1x8_S512x4x8 (ix3 p g b)
      = fieldShift b.val := by
  refine (broadcastTo_apply _ _ (ix3 p g b) (ix3 (0 : Fin 1) (0 : Fin 1) b) ?_).trans ?_
  · intro a
    match a with
    | ⟨0, _⟩ => rfl
    | ⟨1, _⟩ => rfl
    | ⟨2, _⟩ => rfl
  refine (shapeCast_apply _ _ (ix3 (0 : Fin 1) (0 : Fin 1) b) (ix1 b) ?_).trans (shiftAmount_apply b)
  rw [Shape.rowMajor_val_one, Shape.rowMajor_val_three]
  show b.val = (0 * 1 + 0) * 8 + b.val
  omega

/-! ## A packed word repeated along its eight fields -/

theorem wordBcast32_apply (w : S512x32.Idx → BitVec 32) (p : Fin 512) (g : Fin 32) (b : Fin 8) :
    broadcastTo S512x32x8 (shapeCast S512x32x1 w shapeCasts_S512x32_S512x32x1) broadcasts_S512x32x1_S512x32x8 (ix3 p g b)
      = w (ix2 p g) := by
  refine (broadcastTo_apply _ _ (ix3 p g b) (ix3 p g (0 : Fin 1)) ?_).trans ?_
  · intro a
    match a with
    | ⟨0, _⟩ => rfl
    | ⟨1, _⟩ => rfl
    | ⟨2, _⟩ => rfl
  refine shapeCast_apply _ _ (ix3 p g (0 : Fin 1)) (ix2 p g) ?_
  rw [Shape.rowMajor_val_two, Shape.rowMajor_val_three]
  show p.val * 32 + g.val = (p.val * 32 + g.val) * 1 + 0
  omega

theorem wordBcast4_apply (w : S512x4.Idx → BitVec 32) (p : Fin 512) (g : Fin 4) (b : Fin 8) :
    broadcastTo S512x4x8 (shapeCast S512x4x1 w shapeCasts_S512x4_S512x4x1) broadcasts_S512x4x1_S512x4x8 (ix3 p g b)
      = w (ix2 p g) := by
  refine (broadcastTo_apply _ _ (ix3 p g b) (ix3 p g (0 : Fin 1)) ?_).trans ?_
  · intro a
    match a with
    | ⟨0, _⟩ => rfl
    | ⟨1, _⟩ => rfl
    | ⟨2, _⟩ => rfl
  refine shapeCast_apply _ _ (ix3 p g (0 : Fin 1)) (ix2 p g) ?_
  rw [Shape.rowMajor_val_two, Shape.rowMajor_val_three]
  show p.val * 4 + g.val = (p.val * 4 + g.val) * 1 + 0
  omega

/-! ## The shifted words of a slice of packed weights -/

/-- Word `g` of row `p` shifted down by field `b`'s shift. -/
theorem shifted_apply (w : Vec Ideal S512x32 .i32) (p : Fin 512) (g : Fin 32) (b : Fin 8) :
    k0_pay5 (F := Ideal) w (ix3 p g b) = IntOp.shrsi .vector (w (ix2 p g)) (fieldShift b.val) := by
  unfold k0_pay5
  show IntOp.shrsi .vector
      (broadcastTo S512x32x8 (shapeCast S512x32x1 w shapeCasts_S512x32_S512x32x1) broadcasts_S512x32x1_S512x32x8 (ix3 p g b))
      (broadcastTo S512x32x8 (shapeCast S1x1x8 k0_pay2 shapeCasts_S8_S1x1x8) broadcasts_S1x1x8_S512x32x8 (ix3 p g b)) = _
  rw [shiftVec32_apply, wordBcast32_apply]

/-! ## The zero points, unpacked -/

/-- Zero point `g` of row `p`: field `g % 8` of the packed zero word `g / 8`. -/
theorem zeroPoint_apply (x1 : Vec Ideal S512x4 .i32) (p : Fin 512) (g : Fin 32) :
    k0_pay3 (F := Ideal) x1 (ix2 p g)
      = fieldVal (x1 (ix2 p (⟨g.val / 8, by have := g.isLt; omega⟩ : Fin 4))) (g.val % 8) := by
  have hg := g.isLt
  unfold k0_pay3
  show FloatOps.sitofp (F := Ideal) .f32 (shapeCast S512x32 (andi (shrsi
      (broadcastTo S512x4x8 (shapeCast S512x4x1 x1 shapeCasts_S512x4_S512x4x1) broadcasts_S512x4x1_S512x4x8)
      (broadcastTo S512x4x8 (shapeCast S1x1x8 k0_pay2 shapeCasts_S8_S1x1x8) broadcasts_S1x1x8_S512x4x8))
      (broadcast S512x4x8 15#32)) shapeCasts_S512x4x8_S512x32 (ix2 p g)) = _
  rw [shapeCast_apply _ _ (ix2 p g) (ix3 p (⟨g.val / 8, by omega⟩ : Fin 4) (⟨g.val % 8, by omega⟩ : Fin 8))
    (by rw [Shape.rowMajor_val_two, Shape.rowMajor_val_three]
        show (p.val * 4 + g.val / 8) * 8 + g.val % 8 = p.val * 32 + g.val
        omega)]
  show FloatOps.sitofp (F := Ideal) .f32 (IntOp.andi (IntOp.shrsi .vector
      (broadcastTo S512x4x8 (shapeCast S512x4x1 x1 shapeCasts_S512x4_S512x4x1) broadcasts_S512x4x1_S512x4x8 (ix3 p _ _))
      (broadcastTo S512x4x8 (shapeCast S1x1x8 k0_pay2 shapeCasts_S8_S1x1x8) broadcasts_S1x1x8_S512x4x8 (ix3 p _ _))) 15#32) = _
  rw [shiftVec4_apply, wordBcast4_apply, andi_shrsi_fieldShift .vector _ (by show g.val % 8 < 8; omega)]
  rfl

/-! ## The tail every chunk shares -/

/-- Mask the shifted words to four bits, lay the [512, 32, 8] fields out as [512, 256], convert. -/
theorem maskConv_apply (w3 : IVec S512x32x8 32) (p : Fin 512) (q : Fin 256) :
    (sitofp (F := Ideal) .f32 (shapeCast S512x256 (andi w3 (broadcast S512x32x8 15#32)) shapeCasts_S512x32x8_S512x256)) (ix2 p q)
      = FloatOps.sitofp (F := Ideal) .f32 (IntOp.andi (w3 (ix3 p (⟨q.val / 8, by have := q.isLt; omega⟩ : Fin 32)
          (⟨q.val % 8, by omega⟩ : Fin 8))) 15#32) := by
  have hq := q.isLt
  show FloatOps.sitofp (F := Ideal) .f32
    (shapeCast S512x256 (andi w3 (broadcast S512x32x8 15#32)) shapeCasts_S512x32x8_S512x256 (ix2 p q)) = _
  rw [shapeCast_apply _ _ (ix2 p q) (ix3 p (⟨q.val / 8, by omega⟩ : Fin 32) (⟨q.val % 8, by omega⟩ : Fin 8))
    (by rw [Shape.rowMajor_val_two, Shape.rowMajor_val_three]
        show (p.val * 32 + q.val / 8) * 8 + q.val % 8 = p.val * 256 + q.val
        omega)]
  rfl

/-- Two columns from column `o` of a [512, 32] array, each repeated 128 times along the row: at `(p, q)`
    the array's entry `(p, o + q / 128)`. -/
theorem group_apply (o : ℕ) (hs : S512x32.Slices ![0, o] S512x2) (z : S512x32.Idx → EReal) (p : Fin 512) (q : Fin 256)
    (k : Fin 32) (hk : k.val = o + q.val / 128) :
    shapeCast S512x256 (broadcastTo S512x2x128 (shapeCast S512x2x1 (shapeCast S512x2x1
        (extractStridedSlice S512x2 ![0, o] z hs) shapeCasts_S512x2_S512x2x1) shapeCasts_S512x2x1_S512x2x1)
        broadcasts_S512x2x1_S512x2x128) shapeCasts_S512x2x128_S512x256 (ix2 p q) = z (ix2 p k) := by
  have hq := q.isLt
  refine (shapeCast_apply _ _ (ix2 p q) (ix3 p (⟨q.val / 128, by omega⟩ : Fin 2) (⟨q.val % 128, by omega⟩ : Fin 128)) ?_).trans ?_
  · rw [Shape.rowMajor_val_two, Shape.rowMajor_val_three]
    show (p.val * 2 + q.val / 128) * 128 + q.val % 128 = p.val * 256 + q.val
    omega
  refine (broadcastTo_apply _ _ _ (ix3 p (⟨q.val / 128, by omega⟩ : Fin 2) (0 : Fin 1)) ?_).trans ?_
  · intro a
    match a with
    | ⟨0, _⟩ => rfl
    | ⟨1, _⟩ => rfl
    | ⟨2, _⟩ => rfl
  rw [shapeCast_self]
  refine (shapeCast_apply _ _ _ (ix2 p (⟨q.val / 128, by omega⟩ : Fin 2)) ?_).trans ?_
  · rw [Shape.rowMajor_val_two, Shape.rowMajor_val_three]
    show p.val * 2 + q.val / 128 = (p.val * 2 + q.val / 128) * 1 + 0
    omega
  refine extractStridedSlice_apply _ _ _ _ (ix2 p k) ?_
  intro a
  match a with
  | ⟨0, _⟩ => show p.val = 0 + p.val; omega
  | ⟨1, _⟩ => show k.val = o + q.val / 128; exact hk

/-- What every chunk does with its shifted words `w3`, the unpacked zero points `z` and the scales `s`, for the
    chunk's two groups starting at group `o`. -/
def tail (o : ℕ) (hs : S512x32.Slices ![0, o] S512x2) (z : FVec Ideal S512x32 .f32) (s : Vec Ideal S512x32 .f32)
    (w3 : IVec S512x32x8 32) : FVec Ideal S512x256 .bf16 :=
  truncf .bf16 (mulf (subf
      (sitofp .f32 (shapeCast S512x256 (andi w3 (broadcast S512x32x8 15#32)) shapeCasts_S512x32x8_S512x256))
      (shapeCast S512x256 (broadcastTo S512x2x128 (shapeCast S512x2x1 (shapeCast S512x2x1
        (extractStridedSlice S512x2 ![0, o] z hs) shapeCasts_S512x2_S512x2x1) shapeCasts_S512x2x1_S512x2x1)
        broadcasts_S512x2x1_S512x2x128) shapeCasts_S512x2x128_S512x256))
      (shapeCast S512x256 (broadcastTo S512x2x128 (shapeCast S512x2x1 (shapeCast S512x2x1
        (extractStridedSlice S512x2 ![0, o] s hs) shapeCasts_S512x2_S512x2x1) shapeCasts_S512x2x1_S512x2x1)
        broadcasts_S512x2x1_S512x2x128) shapeCasts_S512x2x128_S512x256)) bitsLt_bf16_f32

theorem tail_apply (o : ℕ) (hs : S512x32.Slices ![0, o] S512x2) (z : FVec Ideal S512x32 .f32) (s : Vec Ideal S512x32 .f32)
    (w3 : IVec S512x32x8 32) (p : Fin 512) (q : Fin 256) (k : Fin 32) (hk : k.val = o + q.val / 128) :
    tail o hs z s w3 (ix2 p q)
      = (FloatOps.sitofp (F := Ideal) .f32 (IntOp.andi (w3 (ix3 p (⟨q.val / 8, by have := q.isLt; omega⟩ : Fin 32)
          (⟨q.val % 8, by omega⟩ : Fin 8))) 15#32) - z (ix2 p k)) * s (ix2 p k) := by
  unfold tail
  rw [truncf_apply, mulf_apply, subf_apply, maskConv_apply, group_apply o hs z p q k hk, group_apply o hs s p q k hk]

/-! ## The dequantised weight of one block -/

/-- Row `p`, column `k` of the block's weight from the block's packed words `x0`, packed zero points `x1` and
    scales `x2`: `(q − z) · s`. -/
def bw (x0 : Vec Ideal S512x512 .i32) (x1 : Vec Ideal S512x4 .i32) (x2 : Vec Ideal S512x32 .f32) (p : Fin 512) (k : Fin 4096) :
    EReal :=
  (fieldVal (x0 (ix2 p (⟨k.val / 8, by have := k.isLt; omega⟩ : Fin 512))) (k.val % 8)
      - fieldVal (x1 (ix2 p (⟨k.val / 1024, by have := k.isLt; omega⟩ : Fin 4))) (k.val / 128 % 8))
    * x2 (ix2 p (⟨k.val / 128, by have := k.isLt; omega⟩ : Fin 32))

/-- The block's weight as an array. -/
def blockWeight (x0 : Vec Ideal S512x512 .i32) (x1 : Vec Ideal S512x4 .i32) (x2 : Vec Ideal S512x32 .f32) :
    S512x4096.Idx → EReal :=
  fun y => bw x0 x1 x2 (y 0) (y 1)

theorem zero2 : (![0, 0] : Fin 2 → ℕ) = fun _ => 0 := funext fun a => by fin_cases a <;> rfl

/-- A quantised value less its zero point, times the scale, from equal ingredients. -/
theorem dequant_congr {A A' B B' : BitVec 32} {a a' b b' : ℕ} {C C' : EReal} (hA : A = A') (ha : a = a') (hB : B = B')
    (hb : b = b') (hC : C = C') :
    (FloatOps.sitofp (F := Ideal) .f32 (field A a) - fieldVal B b) * C = (fieldVal A' a' - fieldVal B' b') * C' := by
  subst hA ha hB hb hC; rfl

/-- The chunk whose two groups start at group `o` (packed words from word `wo = 16 · o`), at local `(p, q)`: the
    block's weight at column `128 · o + q`. -/
theorem chunk_apply (o wo : ℕ) (hs : S512x32.Slices ![0, o] S512x2)
    (inb : ∀ a, (![0, wo] : Fin 2 → ℕ) a + S512x32.size a ≤ S512x512.size a)
    (x0 : Vec Ideal S512x512 .i32) (x1 : Vec Ideal S512x4 .i32) (x2 : Vec Ideal S512x32 .f32)
    (p : Fin 512) (q : Fin 256) (k : Fin 4096) (hwo : wo = 16 * o) (hk : k.val = 128 * o + q.val) :
    tail o hs (k0_pay3 (View.ld x1 r0_0)) (View.ld x2 r0_1)
        (k0_pay5 (View.ld x0 (Rect.unit (s := S512x512) ![0, wo] S512x32.size inb))) (ix2 p q)
      = bw x0 x1 x2 p k := by
  have hq := q.isLt
  have hkk := k.isLt
  rw [tail_apply o hs _ _ _ p q (⟨o + q.val / 128, by omega⟩ : Fin 32) rfl]
  rw [shifted_apply, zeroPoint_apply, andi_shrsi_fieldShift .vector _ (by show q.val % 8 < 8; omega)]
  rw [View.ld_unit_zero (S := S512x4) zero2, View.ld_unit_zero (S := S512x32) zero2]
  unfold bw
  refine dequant_congr ?_ ?_ ?_ ?_ ?_
  · refine congrArg x0 (funext fun a => Fin.ext ?_)
    match a with
    | ⟨0, _⟩ => show 0 + 1 * p.val = p.val; omega
    | ⟨1, _⟩ => show wo + 1 * (q.val / 8) = k.val / 8; omega
  · show q.val % 8 = k.val % 8; omega
  · exact congrArg x1 (congrArg (ix2 p) (Fin.ext (by show (o + q.val / 128) / 8 = k.val / 1024; omega)))
  · show (o + q.val / 128) % 8 = k.val / 128 % 8; omega
  · exact congrArg x2 (congrArg (ix2 p) (Fin.ext (by show o + q.val / 128 = k.val / 128; omega)))

/-- The same at an index of the chunk's store rectangle (columns from `co = 128 · o` of the block), against the block's
    weight array under the rectangle. -/
theorem piece_fact (o wo co : ℕ) (hs : S512x32.Slices ![0, o] S512x2)
    (inbw : ∀ a, (![0, wo] : Fin 2 → ℕ) a + S512x32.size a ≤ S512x512.size a)
    (inbc : ∀ a, (![0, co] : Fin 2 → ℕ) a + S512x256.size a ≤ S512x4096.size a)
    (hwo : wo = 16 * o) (hco : co = 128 * o)
    (x0 : Vec Ideal S512x512 .i32) (x1 : Vec Ideal S512x4 .i32) (x2 : Vec Ideal S512x32 .f32)
    (x : (Rect.unit (s := S512x4096) ![0, co] S512x256.size inbc).shape.Idx) :
    tail o hs (k0_pay3 (View.ld x1 r0_0)) (View.ld x2 r0_1)
        (k0_pay5 (View.ld x0 (Rect.unit (s := S512x512) ![0, wo] S512x32.size inbw))) x
      = blockWeight x0 x1 x2 ((Rect.unit (s := S512x4096) ![0, co] S512x256.size inbc).emb x) := by
  obtain ⟨p, q, rfl⟩ : ∃ (p : Fin 512) (q : Fin 256), x = ix2 p q := ⟨x 0, x 1, eq_ix2 x⟩
  have hq := q.isLt
  have hc : co + 256 ≤ 4096 := inbc 1
  refine (chunk_apply o wo hs inbw x0 x1 x2 p q (⟨co + q.val, by omega⟩ : Fin 4096) hwo (by show co + q.val = _; omega)).trans ?_
  show bw x0 x1 x2 p _ = bw x0 x1 x2 _ _
  congr 1
  · exact Fin.ext (show p.val = 0 + 1 * p.val by omega)
  · exact Fin.ext (show co + q.val = co + 1 * q.val by omega)

/-! ## The block the body leaves -/

/-- The output's staging buffer after the body holds the block's weight: each of its sixteen stores writes the tile of
    the block's weight under its rectangle, and the rectangles cover the buffer. -/
theorem out_eq (x0 : Vec Ideal S512x512 .i32) (x1 : Vec Ideal S512x4 .i32) (x2 : Vec Ideal S512x32 .f32) :
    out0_3 (F := Ideal) x0 x1 x2 = blockWeight x0 x1 x2 := by
  funext y
  unfold out0_3
  refine View.canon_apply_of_pieces (Val := Elt Ideal) (S := S512x4096) (e := .bf16) (blockWeight x0 x1 x2) _ ?_ y (cover0_3 _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl
  · exact piece_fact 30 480 3840 slices_S512x32_o0_30_S512x2 inb_S512x512_S512x32_0_480 inb_S512x4096_S512x256_0_3840 rfl rfl x0 x1 x2
  · exact piece_fact 28 448 3584 slices_S512x32_o0_28_S512x2 inb_S512x512_S512x32_0_448 inb_S512x4096_S512x256_0_3584 rfl rfl x0 x1 x2
  · exact piece_fact 26 416 3328 slices_S512x32_o0_26_S512x2 inb_S512x512_S512x32_0_416 inb_S512x4096_S512x256_0_3328 rfl rfl x0 x1 x2
  · exact piece_fact 24 384 3072 slices_S512x32_o0_24_S512x2 inb_S512x512_S512x32_0_384 inb_S512x4096_S512x256_0_3072 rfl rfl x0 x1 x2
  · exact piece_fact 22 352 2816 slices_S512x32_o0_22_S512x2 inb_S512x512_S512x32_0_352 inb_S512x4096_S512x256_0_2816 rfl rfl x0 x1 x2
  · exact piece_fact 20 320 2560 slices_S512x32_o0_20_S512x2 inb_S512x512_S512x32_0_320 inb_S512x4096_S512x256_0_2560 rfl rfl x0 x1 x2
  · exact piece_fact 18 288 2304 slices_S512x32_o0_18_S512x2 inb_S512x512_S512x32_0_288 inb_S512x4096_S512x256_0_2304 rfl rfl x0 x1 x2
  · exact piece_fact 16 256 2048 slices_S512x32_o0_16_S512x2 inb_S512x512_S512x32_0_256 inb_S512x4096_S512x256_0_2048 rfl rfl x0 x1 x2
  · exact piece_fact 14 224 1792 slices_S512x32_o0_14_S512x2 inb_S512x512_S512x32_0_224 inb_S512x4096_S512x256_0_1792 rfl rfl x0 x1 x2
  · exact piece_fact 12 192 1536 slices_S512x32_o0_12_S512x2 inb_S512x512_S512x32_0_192 inb_S512x4096_S512x256_0_1536 rfl rfl x0 x1 x2
  · exact piece_fact 10 160 1280 slices_S512x32_o0_10_S512x2 inb_S512x512_S512x32_0_160 inb_S512x4096_S512x256_0_1280 rfl rfl x0 x1 x2
  · exact piece_fact 8 128 1024 slices_S512x32_o0_8_S512x2 inb_S512x512_S512x32_0_128 inb_S512x4096_S512x256_0_1024 rfl rfl x0 x1 x2
  · exact piece_fact 6 96 768 slices_S512x32_o0_6_S512x2 inb_S512x512_S512x32_0_96 inb_S512x4096_S512x256_0_768 rfl rfl x0 x1 x2
  · exact piece_fact 4 64 512 slices_S512x32_o0_4_S512x2 inb_S512x512_S512x32_0_64 inb_S512x4096_S512x256_0_512 rfl rfl x0 x1 x2
  · exact piece_fact 2 32 256 slices_S512x32_o0_2_S512x2 inb_S512x512_S512x32_0_32 inb_S512x4096_S512x256_0_256 rfl rfl x0 x1 x2
  · exact piece_fact 0 0 0 slices_S512x32_o0_0_S512x2 inb_S512x512_S512x32_0_0 inb_S512x4096_S512x256_0_0 rfl rfl x0 x1 x2

end Cert.KernelIdeal.WeightChunks
end
-- ==== Proof.WeightRegion.lean ====
/-
  The first region's array.

  Grid point `t` of the 32 reads rows [512·t, 512·t + 512) of the packed weights, the packed zero points and the scales, and
  writes the same rows of the weight; the body leaves the block's weight (all 4096 columns), which is those rows of the
  whole arrays' weight. The 32 blocks cover the 16384 rows, so the array the region leaves is the dequantised weight.
-/
import proofs.«427535_j11630771438119_3_alg».proof.Proof.Gen.KernelIdeal.Frame
import proofs.«427535_j11630771438119_3_alg».proof.Proof.Spec
import proofs.«427535_j11630771438119_3_alg».proof.Proof.WeightChunks
import Idealize.ShloMosaic.Lib.ValueIdx
import Idealize.ShloMosaic.Lib.Pipeline.Value

set_option maxRecDepth 16384

noncomputable section

namespace Cert.KernelIdeal.WeightRegion
open Idealize.ShloMosaic Idealize.ShloMosaic.TcCoe Idealize.SL.Sem Idealize.ShloMosaic.ValueIdx
open Cert.KernelIdeal Cert.KernelIdeal.Gen
open Cert.QuantLinear Cert.KernelIdeal.WeightChunks
open Idealize.ShloMosaic.Pipeline (Dat)

variable (V : (c : Dev nD) → (b : Ref sig .tc) → Buf (Elt Ideal) ((c : Thread nD τ).loc b))

/-- The three arrays the region reads, at their literal types. -/
abbrev qwArr (c : Dev nD) : S16384x512.Idx → BitVec 32 := V c main_arg1
abbrev qzArr (c : Dev nD) : S16384x4.Idx → BitVec 32 := V c main_arg2
abbrev scArr (c : Dev nD) : S16384x32.Idx → EReal := V c main_arg3

/-- Every window's block at grid point `t` is block `(t, 0)` of its array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- A block whose row `p` is row `n` of the three arrays has, in that row, the arrays' weight of row `n`. -/
theorem bw_block (A : S16384x512.Idx → BitVec 32) (B : S16384x4.Idx → BitVec 32) (C : S16384x32.Idx → EReal)
    (x0 : Vec Ideal S512x512 .i32) (x1 : Vec Ideal S512x4 .i32) (x2 : Vec Ideal S512x32 .f32) (n : Fin 16384) (p : Fin 512)
    (h0 : ∀ g : Fin 512, x0 (ix2 p g) = A (ix2 n g)) (h1 : ∀ g : Fin 4, x1 (ix2 p g) = B (ix2 n g))
    (h2 : ∀ g : Fin 32, x2 (ix2 p g) = C (ix2 n g)) (k : Fin 4096) :
    bw x0 x1 x2 p k = weight A B C n k := by
  unfold bw weight
  rw [h0, h1, h2]

/-- What grid point `t` writes back is block `t` of the dequantised weight. -/
theorem flushed_eq (c : Dev nD) (t : Fin cfg0.N) :
    (dat0 (F := Ideal) V c).flushed 3 t
      = ((cfg0.win 3).blk t).view.read (Elt Ideal) (weightArr (V c main_arg1) (V c main_arg2) (V c main_arg3)) := by
  show (cfg0.win 3).cut (grid0.coords t) ((dat0 V c).after 3 t) = _
  rw [after0_3, out_eq]
  obtain ⟨e00, e01, e10, e11, e20, e21, e30, e31⟩ := idx_facts t
  have ht : t.val < 32 := lt_of_lt_of_eq t.isLt N_0
  funext j
  have hj0 : (j 0).val < 512 := (j 0).isLt
  have hj1 : (j 1).val < 4096 := (j 1).isLt
  show bw (iblk0 V c 0 t) (iblk0 V c 1 t) (iblk0 V c 2 t) ⟨(j 0).val, hj0⟩ ⟨(j 1).val, hj1⟩
    = weight (qwArr V c) (qzArr V c) (scArr V c) (((cfg0.win 3).blk t).view.emb j 0) (((cfg0.win 3).blk t).view.emb j 1)
  have hn : 512 * t.val + (j 0).val < 16384 := by omega
  refine (bw_block (qwArr V c) (qzArr V c) (scArr V c) (iblk0 V c 0 t) (iblk0 V c 1 t) (iblk0 V c 2 t)
    ⟨512 * t.val + (j 0).val, hn⟩ ⟨(j 0).val, hj0⟩ ?_ ?_ ?_ ⟨(j 1).val, hj1⟩).trans ?_
  · intro g
    show qwArr V c (((cfg0.win 0).blk t).view.emb (ix2 ⟨(j 0).val, hj0⟩ g)) = qwArr V c (ix2 ⟨512 * t.val + (j 0).val, hn⟩ g)
    refine congrArg (qwArr V c) (funext fun a => Fin.ext ?_)
    match a with
    | ⟨0, _⟩ => show win0_0.index t (0 : Fin 2) * 512 + 1 * (j 0).val = 512 * t.val + (j 0).val; omega
    | ⟨1, _⟩ => show win0_0.index t (1 : Fin 2) * 512 + 1 * g.val = g.val; omega
  · intro g
    show qzArr V c (((cfg0.win 1).blk t).view.emb (ix2 ⟨(j 0).val, hj0⟩ g)) = qzArr V c (ix2 ⟨512 * t.val + (j 0).val, hn⟩ g)
    refine congrArg (qzArr V c) (funext fun a => Fin.ext ?_)
    match a with
    | ⟨0, _⟩ => show win0_1.index t (0 : Fin 2) * 512 + 1 * (j 0).val = 512 * t.val + (j 0).val; omega
    | ⟨1, _⟩ => show win0_1.index t (1 : Fin 2) * 4 + 1 * g.val = g.val; omega
  · intro g
    show scArr V c (((cfg0.win 2).blk t).view.emb (ix2 ⟨(j 0).val, hj0⟩ g)) = scArr V c (ix2 ⟨512 * t.val + (j 0).val, hn⟩ g)
    refine congrArg (scArr V c) (funext fun a => Fin.ext ?_)
    match a with
    | ⟨0, _⟩ => show win0_2.index t (0 : Fin 2) * 512 + 1 * (j 0).val = 512 * t.val + (j 0).val; omega
    | ⟨1, _⟩ => show win0_2.index t (1 : Fin 2) * 32 + 1 * g.val = g.val; omega
  · have r0 : (⟨512 * t.val + (j 0).val, hn⟩ : Fin 16384) = ((cfg0.win 3).blk t).view.emb j 0 :=
      Fin.ext (show 512 * t.val + (j 0).val = win0_3.index t (0 : Fin 2) * 512 + 1 * (j 0).val by omega)
    have r1 : (⟨(j 1).val, hj1⟩ : Fin 4096) = ((cfg0.win 3).blk t).view.emb j 1 :=
      Fin.ext (show (j 1).val = win0_3.index t (1 : Fin 2) * 4096 + 1 * (j 1).val by omega)
    exact congrArg₂ (weight (qwArr V c) (qzArr V c) (scArr V c)) r0 r1

/-- An index of the weight array is in point `t`'s block iff each coordinate is in the block's range on its axis. -/
theorem mem_blk (t : Fin cfg0.N) (i : S16384x4096.Idx) :
    i ∈ ((cfg0.win 3).blk t).view.set ↔ ∀ a : Fin 2, win0_3.index t a * S512x4096.size a ≤ (i a).val
      ∧ (i a).val < win0_3.index t a * S512x4096.size a + S512x4096.size a := by
  show i ∈ ((View.whole main_v3).slice (win0_3.rect t)).set ↔ _
  rw [View.set_slice_whole, Rect.mem_set_unit]
  exact Iff.rfl

/-- Row `r` of the weight array lies in the block of grid point `r / 512`: the blocks cover the array. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ : ∃ t : Fin cfg0.N, t.val = (i 0).val / 512 :=
    ⟨⟨(i 0).val / 512, lt_of_lt_of_eq (by omega : (i 0).val / 512 < 32) N_0.symm⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 4096 ≤ (i 1).val ∧ (i 1).val < win0_3.index t (1 : Fin 2) * 4096 + 4096
    omega

/-- The first region leaves the dequantised weight in its output array. -/
theorem weight_final (c : Dev nD) :
    (dat0 (F := Ideal) V c).arrAt 3 cfg0.N
      = Cert.QuantLinear.weightArr (V c main_arg1) (V c main_arg2) (V c main_arg3) :=
  (dat0 V c).arrAt_eq_of_cover 3 _ (fun t _ => flushed_eq V c t) cover

end Cert.KernelIdeal.WeightRegion
end
-- ==== Proof.KernelValue.lean ====
/-
  The kernel program's result as one function of its arguments.

  The result is the reshape of the second region's output; that output is the product with bias of the activation matrix,
  the first region's output and the bias row; the first region's output is the dequantised weight of the three quantised
  arguments. Reading each boundary back to the launch memory gives, at `(b, s, n)`,
  `Σ_k x[b, s, k] · W[n, k] + bias[n]`.
-/
import proofs.«427535_j11630771438119_3_alg».proof.Proof.KernelRun
import proofs.«427535_j11630771438119_3_alg».proof.Proof.Boundary
import proofs.«427535_j11630771438119_3_alg».proof.Proof.MatmulRegion
import proofs.«427535_j11630771438119_3_alg».proof.Proof.WeightRegion
import proofs.«427535_j11630771438119_3_alg».proof.Proof.Spec

set_option maxRecDepth 16384

noncomputable section

namespace Cert.KernelIdeal.KernelValue

open Idealize.ShloMosaic Idealize.ShloMosaic.TcCoe Idealize.SL.Sem Idealize.ShloMosaic.ValueIdx
open Cert.KernelIdeal Cert.KernelIdeal.Gen Cert.QuantLinear

variable (m : (ℓ : Loc nD τ sig) → Buf (Elt Ideal) ℓ) (ρ : Dev nD → PrngReg)

/-- The five arguments at their literal types. -/
abbrev xArg (c : Dev nD) : S4x2048x4096.Idx → EReal := m ((c : Thread nD τ).loc main_arg0)
abbrev qwArg (c : Dev nD) : S16384x512.Idx → BitVec 32 := m ((c : Thread nD τ).loc main_arg1)
abbrev qzArg (c : Dev nD) : S16384x4.Idx → BitVec 32 := m ((c : Thread nD τ).loc main_arg2)
abbrev scArg (c : Dev nD) : S16384x32.Idx → EReal := m ((c : Thread nD τ).loc main_arg3)
abbrev biasArg (c : Dev nD) : S16384.Idx → EReal := m ((c : Thread nD τ).loc main_arg4)

/-- The weight the second region reads is the dequantised weight of the arguments. -/
theorem weight_at (c : Dev nD) (n : Fin 16384) (k : Fin 4096) :
    MatmulRegion.wtArr (V2 m ρ) c (ix2 n k) = weight (qwArg m c) (qzArg m c) (scArg m c) n k := by
  have h := (Boundary.mid_weight m ρ c).trans (WeightRegion.weight_final (V1 m ρ) c)
  rw [Boundary.entry_qweight, Boundary.entry_qzeros, Boundary.entry_scales] at h
  exact congrFun h (ix2 n k)

/-- The activations the second region reads are the argument's, row `2048·b + s` being `(b, s)`. -/
theorem act_at (c : Dev nD) (b : Fin 4) (s : Fin 2048) (k : Fin 4096) :
    MatmulRegion.actArr (V2 m ρ) c (ix2 (⟨2048 * b.val + s.val, by omega⟩ : Fin 8192) k) = xArg m c (ix3 b s k) :=
  (congrFun (Boundary.mid_act m ρ c) _).trans (Boundary.act_at m ρ c b s k)

/-- The bias row the second region reads is the argument's. -/
theorem bias_at (c : Dev nD) (n : Fin 16384) :
    MatmulRegion.biasRow (V2 m ρ) c (ix2 (0 : Fin 1) n) = biasArg m c (ix1 n) :=
  (congrFun (Boundary.mid_bias m ρ c) _).trans (Boundary.bias_at m ρ c n)

/-- The result buffer's last contents are the layer's output of the five arguments. -/
theorem result_eq (c : Dev nD) :
    (W4 m ρ c (Proc.devRef .tc main_v5) : S4x2048x16384.Idx → EReal)
      = outputArr (xArg m c) (qwArg m c) (qzArg m c) (scArg m c) (biasArg m c) := by
  funext i
  obtain ⟨b, s, n, rfl⟩ : ∃ (b : Fin 4) (s : Fin 2048) (n : Fin 16384), i = ix3 b s n := ⟨i 0, i 1, i 2, eq_ix3 i⟩
  refine (Boundary.result_at m ρ c b s n).trans ?_
  refine (congrFun ((Boundary.exit_out m ρ c).trans (MatmulRegion.matmul_final (V2 m ρ) c)) _).trans ?_
  show (∑ k : Fin 4096, MatmulRegion.actArr (V2 m ρ) c (ix2 (⟨2048 * b.val + s.val, by omega⟩ : Fin 8192) k) * MatmulRegion.wtArr (V2 m ρ) c (ix2 n k))
      + MatmulRegion.biasRow (V2 m ρ) c (ix2 (0 : Fin 1) n)
    = (∑ k : Fin 4096, xArg m c (ix3 b s k) * weight (qwArg m c) (qzArg m c) (scArg m c) n k) + biasArg m c (ix1 n)
  rw [bias_at]
  refine congrArg (· + _) (Finset.sum_congr rfl fun k _ => ?_)
  rw [act_at m ρ c b s k, weight_at m ρ c n k]

/-- THE RUN, READ: every weakly fair execution of the kernel program terminates, nothing faulting, with the result at
    the layer's output of the arguments and the arguments unchanged. -/
theorem run : θ_run defs (onTc (τ := τ) (main (F := Ideal))) ⟨m, fun _ => 0, ρ⟩ (fun r => ∀ c : Dev nD,
      r.2.mem ((c.tc : Thread nD τ).loc main_v5) = outputArr (xArg m c) (qwArg m c) (qzArg m c) (scArg m c) (biasArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m ρ c), (h c).2⟩) (RunValue.run_result m ρ)

end Cert.KernelIdeal.KernelValue

end
-- ==== Proof.RefValue.lean ====
import proofs.«427535_j11630771438119_3_alg».proof.Proof.Gen.ReferenceIdeal.Read
import proofs.«427535_j11630771438119_3_alg».proof.Proof.Spec
import Idealize.ShloMosaic.Lib.ValueIdx

/-!
  The value of the reference program, read against the specification of the quantised linear layer.

  The reference unpacks each 32-bit word into eight 4-bit fields by a broadcast, an arithmetic shift by
  `4·b` and a mask, flattens `(P, b)` to the column `k = 8·P + b`, repeats zero points and scales over each
  group of 128 columns, forms `(q − z)·s` and contracts with the activations. Each stage is read here at explicit
  coordinates and identified with the matching term of the specification.
-/

noncomputable section

namespace Cert.ReferenceIdeal.RefValue
open Idealize.ShloMosaic Idealize.ShloMosaic.ValueIdx Cert.ReferenceIdeal
open Cert.QuantLinear

/-- The shift amounts of the weight unpacking: entry `b` is `4·b`. -/
theorem shift_w (b : Fin 8) : Read.val_main_v2 (F := Ideal) (ix1 b) = fieldShift b.val := by
  rw [Read.val_main_v2_apply, Read.val_main_v0_apply, Read.val_main_v1_apply, Read.val_main_c_apply]
  rfl

/-- The shift amounts of the zero-point unpacking: entry `b` is `4·b`. -/
theorem shift_z (b : Fin 8) : Read.val_main_v14 (F := Ideal) (ix1 b) = fieldShift b.val := by
  rw [Read.val_main_v14_apply, Read.val_main_v12_apply, Read.val_main_v13_apply, Read.val_main_c_1_apply]
  rfl

/-- The unpacked weight words: entry `(n, P, b)` is field `b` of the packed word `(n, P)`. -/
theorem unpack_w (x1 : (⟨S16384x512, .i32⟩ : BufTy).Contents (Elt Ideal)) (n : Fin 16384) (P : Fin 512) (b : Fin 8) :
    Read.val_main_v9 (F := Ideal) x1 (ix3 n P b) = field (x1 (ix2 n P)) b.val := by
  rw [Read.val_main_v9_apply, Read.val_main_v7_apply, Read.val_main_v5_apply, Read.val_main_v3_apply,
    Read.val_main_v6_apply, Read.val_main_v4_apply, Read.val_main_v8_apply, Read.val_main_c_0_apply]
  have e1 : Read.idx_main_v3 (Read.idx_main_v5 (ix3 n P b)) = ix2 n P := by
    funext a
    match a with
    | ⟨0, _⟩ => rfl
    | ⟨1, _⟩ => rfl
  have e2 : Read.idx_main_v4 (Read.idx_main_v6 (ix3 n P b)) = ix1 b := by
    funext a
    match a with
    | ⟨0, _⟩ => rfl
  rw [e1, e2, shift_w]
  exact andi_shrsi_fieldShift .host _ b.isLt

/-- The unpacked zero-point words: entry `(n, P, b)` is field `b` of the packed zero word `(n, P)`. -/
theorem unpack_z (x2 : (⟨S16384x4, .i32⟩ : BufTy).Contents (Elt Ideal)) (n : Fin 16384) (P : Fin 4) (b : Fin 8) :
    Read.val_main_v21 (F := Ideal) x2 (ix3 n P b) = field (x2 (ix2 n P)) b.val := by
  rw [Read.val_main_v21_apply, Read.val_main_v19_apply, Read.val_main_v17_apply, Read.val_main_v15_apply,
    Read.val_main_v18_apply, Read.val_main_v16_apply, Read.val_main_v20_apply, Read.val_main_c_2_apply]
  have e1 : Read.idx_main_v15 (Read.idx_main_v17 (ix3 n P b)) = ix2 n P := by
    funext a
    match a with
    | ⟨0, _⟩ => rfl
    | ⟨1, _⟩ => rfl
  have e2 : Read.idx_main_v16 (Read.idx_main_v18 (ix3 n P b)) = ix1 b := by
    funext a
    match a with
    | ⟨0, _⟩ => rfl
  rw [e1, e2, shift_z]
  exact andi_shrsi_fieldShift .host _ b.isLt

/-- The quantised weight as a real: column `k` of row `n` is field `k % 8` of word `k / 8`. -/
theorem quant_w (x1 : (⟨S16384x512, .i32⟩ : BufTy).Contents (Elt Ideal)) (n : Fin 16384) (k : Fin 4096) :
    Read.val_main_v11 (F := Ideal) x1 (ix2 n k)
      = fieldVal (x1 (ix2 n (⟨k.val / 8, by omega⟩ : Fin 512))) (k.val % 8) := by
  have hn := n.isLt
  have hk := k.isLt
  rw [Read.val_main_v11_apply, Read.val_main_v10_apply]
  have e : Read.idx_main_v10 (ix2 n k)
      = ix3 n (⟨k.val / 8, by omega⟩ : Fin 512) (⟨k.val % 8, by omega⟩ : Fin 8) := by
    funext a
    match a with
    | ⟨0, _⟩ => exact Fin.ext (by show (n.val * 4096 + k.val) / 4096 = n.val; omega)
    | ⟨1, _⟩ => exact Fin.ext (by show (n.val * 4096 + k.val) / 8 % 512 = k.val / 8; omega)
    | ⟨2, _⟩ => exact Fin.ext (by show (n.val * 4096 + k.val) % 8 = k.val % 8; omega)
  rw [e, unpack_w]
  rfl

/-- The zero points as reals, one per group: group `g` of row `n` is field `g % 8` of zero word `g / 8`. -/
theorem quant_z (x2 : (⟨S16384x4, .i32⟩ : BufTy).Contents (Elt Ideal)) (n : Fin 16384) (g : Fin 32) :
    Read.val_main_v23 (F := Ideal) x2 (ix2 n g)
      = fieldVal (x2 (ix2 n (⟨g.val / 8, by omega⟩ : Fin 4))) (g.val % 8) := by
  have hn := n.isLt
  have hg := g.isLt
  rw [Read.val_main_v23_apply, Read.val_main_v22_apply]
  have e : Read.idx_main_v22 (ix2 n g)
      = ix3 n (⟨g.val / 8, by omega⟩ : Fin 4) (⟨g.val % 8, by omega⟩ : Fin 8) := by
    funext a
    match a with
    | ⟨0, _⟩ => exact Fin.ext (by show (n.val * 32 + g.val) / 32 = n.val; omega)
    | ⟨1, _⟩ => exact Fin.ext (by show (n.val * 32 + g.val) / 8 % 4 = g.val / 8; omega)
    | ⟨2, _⟩ => exact Fin.ext (by show (n.val * 32 + g.val) % 8 = g.val % 8; omega)
  rw [e, unpack_z]
  rfl

/-- Where the flattening of `(group, position in group)` sends column `k`: to group `k / 128`. -/
theorem group_idx (n : Fin 16384) (k : Fin 4096) :
    Read.idx_main_v24 (Read.idx_main_v25 (ix2 n k)) = ix2 n (⟨k.val / 128, by omega⟩ : Fin 32) := by
  have hn := n.isLt
  have hk := k.isLt
  funext a
  match a with
  | ⟨0, _⟩ => exact Fin.ext (by show (n.val * 4096 + k.val) / 4096 = n.val; omega)
  | ⟨1, _⟩ => exact Fin.ext (by show (n.val * 4096 + k.val) / 128 % 32 = k.val / 128; omega)

/-- The zero points repeated along the columns: column `k` carries the zero point of group `k / 128`. -/
theorem repeat_z (x2 : (⟨S16384x4, .i32⟩ : BufTy).Contents (Elt Ideal)) (n : Fin 16384) (k : Fin 4096) :
    Read.val_main_v25 (F := Ideal) x2 (ix2 n k)
      = fieldVal (x2 (ix2 n (⟨k.val / 1024, by omega⟩ : Fin 4))) (k.val / 128 % 8) := by
  have hk := k.isLt
  rw [Read.val_main_v25_apply, Read.val_main_v24_apply, group_idx, quant_z]
  have e : (⟨k.val / 128 / 8, by omega⟩ : Fin 4) = ⟨k.val / 1024, by omega⟩ := Fin.ext (by show k.val / 128 / 8 = k.val / 1024; omega)
  rw [e]

/-- The scales repeated along the columns: column `k` carries the scale of group `k / 128`. -/
theorem repeat_s (x3 : (⟨S16384x32, .f32⟩ : BufTy).Contents (Elt Ideal)) (n : Fin 16384) (k : Fin 4096) :
    Read.val_main_v27 (F := Ideal) x3 (ix2 n k) = x3 (ix2 n (⟨k.val / 128, by omega⟩ : Fin 32)) := by
  rw [Read.val_main_v27_apply, Read.val_main_v26_apply]
  exact congrArg x3 (group_idx n k)

/-- The dequantised weight of the reference is the specification's. -/
theorem dequant (x1 : (⟨S16384x512, .i32⟩ : BufTy).Contents (Elt Ideal)) (x2 : (⟨S16384x4, .i32⟩ : BufTy).Contents (Elt Ideal))
    (x3 : (⟨S16384x32, .f32⟩ : BufTy).Contents (Elt Ideal)) (n : Fin 16384) (k : Fin 4096) :
    Read.val_main_v29 (F := Ideal) x1 x2 x3 (ix2 n k) = weight x1 x2 x3 n k := by
  rw [Read.val_main_v29_apply, Read.val_main_v28_apply, quant_w, repeat_z, repeat_s]
  rfl

/-- The reference's result at explicit coordinates: the contraction with the dequantised weight plus the bias. -/
theorem out_apply (x0 : (⟨S4x2048x4096, .f32⟩ : BufTy).Contents (Elt Ideal)) (x1 : (⟨S16384x512, .i32⟩ : BufTy).Contents (Elt Ideal))
    (x2 : (⟨S16384x4, .i32⟩ : BufTy).Contents (Elt Ideal)) (x3 : (⟨S16384x32, .f32⟩ : BufTy).Contents (Elt Ideal))
    (x4 : (⟨S16384, .f32⟩ : BufTy).Contents (Elt Ideal)) (b : Fin 4) (s : Fin 2048) (n : Fin 16384) :
    Read.val_main_v33 (F := Ideal) x0 x1 x2 x3 x4 (ix3 b s n) = output x0 x1 x2 x3 x4 b s n := by
  rw [Read.val_main_v33_apply, Read.val_main_v30_apply, Read.val_main_v32_apply, Read.val_main_v31_apply]
  have eb : Read.idx_main_v31 (Read.idx_main_v32 (ix3 b s n)) = ix1 n := by
    funext a
    match a with
    | ⟨0, _⟩ => rfl
  have es : ∀ k : Fin 4096,
      x0 (Read.lidx_main_v30 (ix3 b s n) k) * Read.val_main_v29 (F := Ideal) x1 x2 x3 (Read.ridx_main_v30 (ix3 b s n) k)
        = x0 (ix3 b s k) * weight x1 x2 x3 n k := by
    intro k
    have el : Read.lidx_main_v30 (ix3 b s n) k = ix3 b s k := by
      funext a
      match a with
      | ⟨0, _⟩ => rfl
      | ⟨1, _⟩ => rfl
      | ⟨2, _⟩ => rfl
    have er : Read.ridx_main_v30 (ix3 b s n) k = ix2 n k := by
      funext a
      match a with
      | ⟨0, _⟩ => rfl
      | ⟨1, _⟩ => rfl
    rw [el, er, dequant]
  rw [eb, Finset.sum_congr rfl fun k _ => es k]
  rfl

/-- The reference's result is the layer's output. -/
theorem ref_eq (x0 : (⟨S4x2048x4096, .f32⟩ : BufTy).Contents (Elt Ideal)) (x1 : (⟨S16384x512, .i32⟩ : BufTy).Contents (Elt Ideal))
    (x2 : (⟨S16384x4, .i32⟩ : BufTy).Contents (Elt Ideal)) (x3 : (⟨S16384x32, .f32⟩ : BufTy).Contents (Elt Ideal))
    (x4 : (⟨S16384, .f32⟩ : BufTy).Contents (Elt Ideal)) :
    Read.val_main_v33 (F := Ideal) x0 x1 x2 x3 x4 = Cert.QuantLinear.outputArr x0 x1 x2 x3 x4 := by
  funext i
  exact (congrArg (Read.val_main_v33 (F := Ideal) x0 x1 x2 x3 x4) (eq_ix3 i)).trans
    (out_apply x0 x1 x2 x3 x4 (i 0) (i 1) (i 2))

end Cert.ReferenceIdeal.RefValue

end
-- ==== Proof.lean ====
/-
  A linear layer over 4-bit quantised weights, computed in two kernel launches, against the same layer in plain array
  operations: equal over the extended reals.

  The kernel program first dequantises the weight — each of the 32 grid points unpacks a 512-row block of packed words,
  sixteen chunks of 256 columns each: field `k % 8` of word `k / 8`, minus the zero point of the column's group, times the
  group's scale — and then multiplies: each point of an 8 × 32 grid contracts a 1024-row block of the activations with a
  512-row block of that weight over all 4096 columns and adds the bias. The reference unpacks whole arrays, repeats zero
  points and scales along the columns, and contracts once. Over the extended reals a change of float format is the
  identity and the conversion of a 4-bit field is exact, so both sides are, at `(b, s, n)`,
  `Σ_k x[b, s, k] · ((q[n, k] − z[n, k / 128]) · s[n, k / 128]) + bias[n]` with the same sum over the same 4096 terms: no
  law of arithmetic is needed beyond that, and the finiteness of the inputs is never used.

  The three runs: the two kernel programs' by their launch (every weakly fair execution terminates, nothing faulting, the
  arguments unchanged), the reference's by its operations read back in order. The idealised kernel program is the printed
  one read over the extended reals: nothing was rewritten, so there is nothing to preserve.
-/
import proofs.«427535_j11630771438119_3_alg».proof.Defs
import proofs.«427535_j11630771438119_3_alg».proof.Proof.Gen.Kernel
import proofs.«427535_j11630771438119_3_alg».proof.Proof.Gen.Kernel.Skeleton
import proofs.«427535_j11630771438119_3_alg».proof.Proof.Gen.Kernel.Launch
import proofs.«427535_j11630771438119_3_alg».proof.Proof.Gen.Kernel.Points
import proofs.«427535_j11630771438119_3_alg».proof.Proof.Gen.Kernel.Frame
import proofs.«427535_j11630771438119_3_alg».proof.Proof.Gen.KernelIdeal
import proofs.«427535_j11630771438119_3_alg».proof.Proof.Gen.KernelIdeal.Skeleton
import proofs.«427535_j11630771438119_3_alg».proof.Proof.Gen.KernelIdeal.Launch
import proofs.«427535_j11630771438119_3_alg».proof.Proof.Gen.KernelIdeal.Points
import proofs.«427535_j11630771438119_3_alg».proof.Proof.Gen.KernelIdeal.Frame
import proofs.«427535_j11630771438119_3_alg».proof.Proof.Gen.ReferenceIdeal
import proofs.«427535_j11630771438119_3_alg».proof.Proof.Gen.Pre_finite_inputs
import proofs.«427535_j11630771438119_3_alg».proof.Proof.Gen.ReferenceIdeal.Run
import proofs.«427535_j11630771438119_3_alg».proof.Proof.Gen.ReferenceIdeal.Read
import proofs.«427535_j11630771438119_3_alg».proof.Proof.KernelValue
import proofs.«427535_j11630771438119_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program over the extended reals. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the five arguments both programs end with the result at the layer's output of those
    arguments: the kernel program's two regions read back to the launch memory, and the reference's operations read at an
    index, are the same function. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.ref_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
